-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048 : Shape := ⟨2, ![4, 2048]⟩
abbrev S32000x2048 : Shape := ⟨2, ![32000, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v8 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v8 main_v17
  main_v18

def fn {F : FTy → Type} [FloatOps F] (main_arg0 : FVec F S4x2048x2048 .f32) (main_arg1 : IVec S4x2048 32) (main_arg2 : FVec F S32000x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S4x2048 32 := broadcastInDim S4x2048 ![] bcast_S_S4x2048 main_c_2
  let main_v10 : IVec S4x2048 1 := cmpi .eq main_arg1 main_v9
  let main_c_3 : IVec S_ 32 := constantI S_ 32 0#32
  let main_v11 : IVec S4x2048 32 := broadcastInDim S4x2048 ![] bcast_S_S4x2048 main_c_3
  let main_v12 : IVec S4x2048 1 := cmpi .sge main_arg1 main_v11
  let main_c_4 : IVec S_ 32 := constantI S_ 32 32000#32
  let main_v13 : IVec S4x2048 32 := broadcastInDim S4x2048 ![] bcast_S_S4x2048 main_c_4
  let main_v14 : IVec S4x2048 1 := cmpi .slt main_arg1 main_v13
  let main_v15 : IVec S4x2048 1 := andi main_v12 main_v14
  let main_v16 : IVec S4x2048 1 := ori main_v10 main_v15
  fn_part1 (F := F) main_v8 main_v16
-- ==== Kernel.lean ====
abbrev S4x2048x2048 : Shape := ⟨3, ![4, 2048, 2048]⟩
abbrev S4x2048 : Shape := ⟨2, ![4, 2048]⟩
abbrev S32000x2048 : Shape := ⟨2, ![32000, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S1024x2048 : Shape := ⟨2, ![1024, 2048]⟩
abbrev S1280x2048 : Shape := ⟨2, ![1280, 2048]⟩
abbrev S1024x1 : Shape := ⟨2, ![1024, 1]⟩
abbrev S1024x1280 : Shape := ⟨2, ![1024, 1280]⟩
abbrev S1x1280 : Shape := ⟨2, ![1, 1280]⟩
abbrev S1024 : Shape := ⟨1, ![1024]⟩

abbrev nBuf : Space → Nat
  | .hbm => 24
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S32000x2048, .f32⟩
  | .hbm, ⟨3, _⟩ => ⟨S8192x2048, .f32⟩
  | .hbm, ⟨4, _⟩ => ⟨S8192x2048, .bf16⟩
  | .hbm, ⟨5, _⟩ => ⟨S32000x2048, .bf16⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S4x2048_S8192 : S4x2048.ShapeCasts S8192
  bcast_S_S8192 : S_.BroadcastsInDim S8192 (![] : Fin 0 → Fin S8192.rank)
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  iota_S1x1280_d1_w32 : S1x1280.Iotas .tc 32 [1]
  broadcasts_S1x1280_S1024x1280 : S1x1280.Broadcasts S1024x1280
  broadcasts_S1024x1_S1024x1280 : S1024x1.Broadcasts S1024x1280
  reduces_S1024x1280_S1024 : S1024x1280.Reduces [1] S1024
  shapeCasts_S1024_S1024x1 : S1024.ShapeCasts S1024x1
  reducesTo_S8192x1_S_d0_1 : S8192x1.ReducesTo [0, 1] S_
  h_S_ : 0 < S_.numel
  reducesTo_S8192_S_d0 : S8192.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S4x2048 : Shape := ⟨2, ![4, 2048]⟩
abbrev S32000x2048 : Shape := ⟨2, ![32000, 2048]⟩
abbrev S_ : Shape := ⟨0, ![]⟩
abbrev S4x2048x32000 : Shape := ⟨3, ![4, 2048, 32000]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S32000x2048, .f32⟩
  | .hbm, ⟨3, _⟩ => ⟨S_, .i32⟩
  | .hbm, ⟨4, _⟩ => ⟨S4x2048, .i32⟩
  | .hbm, ⟨5, _⟩ => ⟨S4x2048, .i1⟩
  | .hbm, ⟨6, _⟩ => ⟨S4x2048, .i32⟩
  | .hbm, ⟨7, _⟩ => ⟨S_, .i32⟩
  | .hbm, ⟨8, _⟩ => ⟨S_, .i32⟩
  | .hbm, ⟨9, _⟩ => ⟨S4x2048x32000, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048x1, .f32⟩
  | .hbm, ⟨16, _⟩ => ⟨S4x2048x32000, .f32⟩
  | .hbm, ⟨17, _⟩ => ⟨S4x2048x32000, .f32⟩
  | .hbm, ⟨18, _⟩ => ⟨S4x2048x32000, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S4x2048x1, .f32⟩
  | .hbm, ⟨23, _⟩ => ⟨S4x2048x32000, .f32⟩
  | .hbm, ⟨24, _⟩ => ⟨S4x2048x32000, .f32⟩
  | .hbm, ⟨25, _⟩ => ⟨S_, .i32⟩
  | .hbm, ⟨26, _⟩ => ⟨S_, .i32⟩
  | .hbm, ⟨27, _⟩ => ⟨S4x2048, .i32⟩
  | .hbm, ⟨28, _⟩ => ⟨S4x2048, .i32⟩
  | .hbm, ⟨29, _⟩ => ⟨S4x2048x1, .i32⟩
  | .hbm, ⟨30, _⟩ => ⟨S_, .i32⟩
  | .hbm, ⟨31, _⟩ => ⟨S4x2048x1, .i32⟩
  | .hbm, ⟨32, _⟩ => ⟨S4x2048x1, .i1⟩
  | .hbm, ⟨33, _⟩ => ⟨S_, .i32⟩
  | .hbm, ⟨34, _⟩ => ⟨S4x2048x1, .i32⟩
  | .hbm, ⟨35, _⟩ => ⟨S4x2048x1, .i32⟩
  | .hbm, ⟨36, _⟩ => ⟨S4x2048x1, .i32⟩
  | .hbm, ⟨37, _⟩ => ⟨S4x2048x1x1, .i32⟩
  | .hbm, ⟨38, _⟩ => ⟨S1, .i32⟩
  | .hbm, ⟨39, _⟩ => ⟨S_, .i32⟩
  | .hbm, ⟨40, _⟩ => ⟨S4x2048x1x1, .i32⟩
  | .hbm, ⟨41, _⟩ => ⟨S4x2048x1x1, .i1⟩
  | .hbm, ⟨42, _⟩ => ⟨S1x1x1x1, .i32⟩
  | .hbm, ⟨43, _⟩ => ⟨S4x2048x1x1, .i32⟩
  | .hbm, ⟨44, _⟩ => ⟨S4x2048x1x1, .i1⟩
  | .hbm, ⟨45, _⟩ => ⟨S4x2048x1x1, .i1⟩
  | .hbm, ⟨46, _⟩ => ⟨S_, .i1⟩
  | .hbm, ⟨47, _⟩ => ⟨S4x2048x1, .i1⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048, .f32⟩
  | .hbm, ⟨53, _⟩ => ⟨S4x2048, .f32⟩
  | .hbm, ⟨54, _⟩ => ⟨S_, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v5 : Ref sig .tc := ⟨.hbm, 24, rfl⟩
abbrev main_c_1 : Ref sig .tc := ⟨.hbm, 25, rfl⟩
abbrev main_call1_v0 : Ref sig .tc := ⟨.hbm, 26, rfl⟩
abbrev main_call1_v1 : Ref sig .tc := ⟨.hbm, 27, rfl⟩
abbrev main_v6 : Ref sig .tc := ⟨.hbm, 28, rfl⟩
abbrev main_v7 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  natLt_1_32 : 1 < 32
  reducesTo_S4x2048_S_d0_1 : S4x2048.ReducesTo [0, 1] S_
  h_S_ : 0 < S_.numel
  reducesTo_S4x2048x32000_S4x2048_d2 : S4x2048x32000.ReducesTo [2] S4x2048
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  dot_S4x2048x2048_S32000x2048_S4x2048x32000_2_1_01_0_n_n_wf : DotDims.WF S4x2048x2048 S32000x2048 S4x2048x32000 [2] [1] [0, 1] [0] [] []
  gather_S4x2048x32000_S4x2048x1x1_S4x2048x1_n_2_01_01_2_3_111_wf : GatherDims.WF S4x2048x32000 S4x2048x1x1 S4x2048x1 [] [2] [0, 1] [2] [0, 1] 3 ![1, 1, 1]

variable [Facts₀]

def dot_S4x2048x2048_S32000x2048_S4x2048x32000_2_1_01_0_n_n : DotDims S4x2048x2048 S32000x2048 S4x2048x32000 where
  lhsContracting := [2]
  rhsContracting := [1]
  lhsNonContracting := [0, 1]
  rhsNonContracting := [0]
  lhsBatch := []
  rhsBatch := []
  wf := dot_S4x2048x2048_S32000x2048_S4x2048x32000_2_1_01_0_n_n_wf
def gather_S4x2048x32000_S4x2048x1x1_S4x2048x1_n_2_01_01_2_3_111 : GatherDims S4x2048x32000 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x32000_S4x2048x1x1_S4x2048x1_n_2_01_01_2_3_111_wf

class Facts : Prop extends Facts₀ where

variable [Facts]
-- ==== Proof.Spec.lean ====
/-
  The mathematics both programs are compared against: token-level cross entropy of a linear projection.
  A row r of the 8192 tokens has logits z r v = ∑ k, x r k * w v k over the 32000 vocabulary columns and a label word.
  The kernel walks the vocabulary in 25 tiles of 1280 columns and keeps, per row, a running maximum m, the running sum l
  of exp (z - m) and the running sum tl of the logits at the label's column; after a tile with maximum m' these become
  m' ⊔ m, exp (m - (m' ⊔ m)) * l + ∑ exp (z - (m' ⊔ m)) and tl + ∑ [column = label] z.  Its row loss is
  ((m + log l) - tl) * mask.  The reference takes the row maximum M, the log-sum-exp log (∑ exp (z - M)) and returns
  -((z label - M) - log ∑ exp (z - M)) on the rows whose label is not the ignored one, 0 elsewhere.  Both divide the sum
  of the row losses by the number of rows that are not ignored.
-/
import Idealize.ShloMosaic.PureOps.Ideal
import Idealize.ShloMosaic.Lib.ValueIdx

noncomputable section

open scoped BigOperators

namespace Cert.LinearCE

open Idealize.ShloMosaic Idealize.ShloMosaic.ValueIdx

/-- The label that marks a token as ignored: the 32-bit word of -100. -/
abbrev ignoreWord : BitVec 32 := 4294967196#32

/-- The logit of token row `r` at vocabulary column `v`: the contraction over the 2048 features. -/
def logit (x : Fin 8192 → Fin 2048 → EReal) (w : Fin 32000 → Fin 2048 → EReal) (r : Fin 8192) (v : Fin 32000) : EReal :=
  ∑ k : Fin 2048, x r k * w v k

/-- The label with the ignored one replaced by column 0. -/
def safeWord (tw : BitVec 32) : BitVec 32 := if tw = ignoreWord then 0#32 else tw

/-- 1 on a row that counts, 0 on an ignored one. -/
def maskf (tw : BitVec 32) : EReal := if tw = ignoreWord then 0 else 1

/-- Column `c` of vocabulary tile `n` (tiles are 1280 wide, 25 of them cover the 32000 columns). -/
def vcol (n : ℕ) (c : Fin 1280) : Fin 32000 := ⟨(n * 1280 + c.val) % 32000, Nat.mod_lt _ (by norm_num)⟩

/-- The same column as the 32-bit word the kernel compares the label with: tile offset plus lane number. -/
def vword (n : ℕ) (c : Fin 1280) : BitVec 32 := BitVec.ofNat 32 n * 1280#32 + BitVec.ofNat 32 c.val

/-- The vocabulary column a label word names. -/
def tcol (tw : BitVec 32) : Fin 32000 := ⟨tw.toNat % 32000, Nat.mod_lt _ (by norm_num)⟩

/-- The maximum of one tile's logits (from -∞). -/
def tileMax (zr : Fin 32000 → EReal) (n : ℕ) : EReal :=
  (Finset.univ : Finset (Fin 1280)).fold max ⊥ (fun c => zr (vcol n c))

/-- One tile of the online recurrence on (running maximum, running sum of exponentials, label logit). -/
def step (zr : Fin 32000 → EReal) (tw : BitVec 32) (n : ℕ) (s : EReal × EReal × EReal) : EReal × EReal × EReal :=
  (max s.1 (tileMax zr n),
   Ideal.exp (s.1 - max s.1 (tileMax zr n)) * s.2.1 + ∑ c : Fin 1280, Ideal.exp (zr (vcol n c) - max s.1 (tileMax zr n)),
   s.2.2 + ∑ c : Fin 1280, if vword n c = tw then zr (vcol n c) else 0)

/-- The recurrence after `n` tiles, from (-∞, 0, 0). -/
def run (zr : Fin 32000 → EReal) (tw : BitVec 32) : ℕ → EReal × EReal × EReal
  | 0 => (⊥, 0, 0)
  | n + 1 => step zr tw n (run zr tw n)

/-- The kernel's loss of one row: after all 25 tiles, (m + log l - label logit) times the mask. -/
def lossK (zr : Fin 32000 → EReal) (tw : BitVec 32) : EReal :=
  (((run zr (safeWord tw) 25).1 + Ideal.log (run zr (safeWord tw) 25).2.1) - (run zr (safeWord tw) 25).2.2) * maskf tw

/-- The maximum of a row's logits (from -∞). -/
def rowMax (zr : Fin 32000 → EReal) : EReal := (Finset.univ : Finset (Fin 32000)).fold max ⊥ zr

/-- The reference's loss of one row: minus the log-softmax at the label's column, 0 on an ignored row. -/
def lossR (zr : Fin 32000 → EReal) (tw : BitVec 32) : EReal :=
  if tw = ignoreWord then 0
  else -((zr (tcol (safeWord tw)) - rowMax zr) - Ideal.log (∑ v : Fin 32000, Ideal.exp (zr v - rowMax zr)))

/-- Token row `r` of the 8192 is batch `r / 2048`, position `r % 2048`. -/
def rowB (r : Fin 8192) : Fin 4 := ⟨r.val / 2048, by have := r.isLt; omega⟩
def rowS (r : Fin 8192) : Fin 2048 := ⟨r.val % 2048, Nat.mod_lt _ (by norm_num)⟩

/-- The three argument arrays as functions of (row, feature), (column, feature) and row. -/
def xOf (X : (⟨3, ![4, 2048, 2048]⟩ : Shape).Idx → EReal) (r : Fin 8192) (k : Fin 2048) : EReal := X (ix3 (rowB r) (rowS r) k)
def wOf (W : (⟨2, ![32000, 2048]⟩ : Shape).Idx → EReal) (v : Fin 32000) (k : Fin 2048) : EReal := W (ix2 v k)
def tOf (T : (⟨2, ![4, 2048]⟩ : Shape).Idx → BitVec 32) (r : Fin 8192) : BitVec 32 := T (ix2 (rowB r) (rowS r))

/-- Row `r`'s logits as a function of the column. -/
def zOf (X : (⟨3, ![4, 2048, 2048]⟩ : Shape).Idx → EReal) (W : (⟨2, ![32000, 2048]⟩ : Shape).Idx → EReal) (r : Fin 8192) :
    Fin 32000 → EReal := logit (xOf X) (wOf W) r

/-- The kernel's result: the sum of its row losses over the number of rows that count. -/
def specK (X : (⟨3, ![4, 2048, 2048]⟩ : Shape).Idx → EReal) (T : (⟨2, ![4, 2048]⟩ : Shape).Idx → BitVec 32)
    (W : (⟨2, ![32000, 2048]⟩ : Shape).Idx → EReal) : EReal :=
  Ideal.div (∑ r : Fin 8192, lossK (zOf X W r) (tOf T r)) (∑ r : Fin 8192, maskf (tOf T r))

/-- The reference's result: the sum of its row losses over the same count. -/
def specR (X : (⟨3, ![4, 2048, 2048]⟩ : Shape).Idx → EReal) (T : (⟨2, ![4, 2048]⟩ : Shape).Idx → BitVec 32)
    (W : (⟨2, ![32000, 2048]⟩ : Shape).Idx → EReal) : EReal :=
  Ideal.div (∑ r : Fin 8192, lossR (zOf X W r) (tOf T r)) (∑ r : Fin 8192, maskf (tOf T r))

end Cert.LinearCE

end
-- ==== Proof.Math1.lean ====
/-
  The online recurrence in closed form.  After n tiles the running maximum is the maximum of the first n tile maxima,
  the label logit is the sum over those tiles' columns of the logits whose column word is the label, and, when every
  logit is a real number and at least one tile has been read, the running sum is the sum over those columns of
  exp (z - running maximum): rescaling by exp (m - m') turns each earlier exp (z - m) into exp (z - m').
-/
import proofs.«401228_j17970143166524_3_alg».proof.Proof.Spec

noncomputable section

open scoped BigOperators

namespace Cert.LinearCE

open Idealize.ShloMosaic

theorem run_fst (zr : Fin 32000 → EReal) (tw : BitVec 32) (n : ℕ) :
    (run zr tw n).1 = (Finset.range n).fold max ⊥ (tileMax zr) := by
  induction n with
  | zero => rfl
  | succ n ih =>
    rw [Finset.range_add_one, Finset.fold_insert Finset.notMem_range_self, ← ih]
    exact max_comm _ _

theorem run_thd (zr : Fin 32000 → EReal) (tw : BitVec 32) (n : ℕ) :
    (run zr tw n).2.2 = ∑ j ∈ Finset.range n, ∑ c : Fin 1280, (if vword j c = tw then zr (vcol j c) else 0) := by
  induction n with
  | zero => rfl
  | succ n ih =>
    rw [Finset.sum_range_succ, ← ih]
    rfl

/-- The coercion of the reals into the extended reals carries a finite sum to the sum of the coercions. -/
private theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A tile of real logits has a real maximum: the maximum over a nonempty finite set is attained. -/
private theorem tileMax_real (zr : Fin 32000 → EReal) (hz : ∀ v, ∃ a : ℝ, zr v = (a : EReal)) (n : ℕ) :
    ∃ a : ℝ, tileMax zr n = (a : EReal) := by
  obtain ⟨c, _, hc⟩ := Finset.exists_mem_eq_sup (Finset.univ : Finset (Fin 1280)) Finset.univ_nonempty
    (fun c => zr (vcol n c))
  obtain ⟨a, ha⟩ := hz (vcol n c)
  exact ⟨a, by rw [← ha, ← hc]; rfl⟩

theorem run_fst_real (zr : Fin 32000 → EReal) (tw : BitVec 32) (hz : ∀ v, ∃ a : ℝ, zr v = (a : EReal)) (n : ℕ) :
    ∃ a : ℝ, (run zr tw (n + 1)).1 = (a : EReal) := by
  induction n with
  | zero =>
    obtain ⟨b, hb⟩ := tileMax_real zr hz 0
    refine ⟨b, ?_⟩
    show max ⊥ (tileMax zr 0) = (b : EReal)
    rw [hb]; exact max_bot_left _
  | succ n ih =>
    obtain ⟨a, ha⟩ := ih
    obtain ⟨b, hb⟩ := tileMax_real zr hz (n + 1)
    refine ⟨max a b, ?_⟩
    show max (run zr tw (n + 1)).1 (tileMax zr (n + 1)) = ((max a b : ℝ) : EReal)
    rw [ha, hb]
    exact (EReal.coe_strictMono.monotone.map_max).symm

/-- Rescaling a sum of exponentials from the real maximum a to the real maximum a':
    exp (a - a') * ∑ exp (z - a) = ∑ exp (z - a'), since exp (a - a') * exp (z - a) = exp (z - a'). -/
private theorem rescale (a a' : ℝ) (s : Finset ℕ) (g : ℕ → Fin 1280 → ℝ) :
    Ideal.exp ((a : EReal) - (a' : EReal)) * ∑ j ∈ s, ∑ c : Fin 1280, Ideal.exp ((g j c : EReal) - (a : EReal))
      = ∑ j ∈ s, ∑ c : Fin 1280, Ideal.exp ((g j c : EReal) - (a' : EReal)) := by
  simp only [← EReal.coe_sub, Ideal.exp_coe, ← coe_finset_sum, ← EReal.coe_mul]
  congr 1
  rw [Finset.mul_sum]
  refine Finset.sum_congr rfl fun j _ => ?_
  rw [Finset.mul_sum]
  refine Finset.sum_congr rfl fun c _ => ?_
  rw [← Real.exp_add]
  congr 1
  ring

theorem run_snd (zr : Fin 32000 → EReal) (tw : BitVec 32) (hz : ∀ v, ∃ a : ℝ, zr v = (a : EReal)) (n : ℕ) :
    (run zr tw (n + 1)).2.1
      = ∑ j ∈ Finset.range (n + 1), ∑ c : Fin 1280, Ideal.exp (zr (vcol j c) - (run zr tw (n + 1)).1) := by
  induction n with
  | zero =>
    show Ideal.exp (⊥ - max ⊥ (tileMax zr 0)) * 0
        + ∑ c : Fin 1280, Ideal.exp (zr (vcol 0 c) - max ⊥ (tileMax zr 0))
      = ∑ j ∈ Finset.range 1, ∑ c : Fin 1280, Ideal.exp (zr (vcol j c) - max ⊥ (tileMax zr 0))
    rw [mul_zero, zero_add, Finset.sum_range_one]
  | succ n ih =>
    obtain ⟨a, ha⟩ := run_fst_real zr tw hz n
    obtain ⟨a', ha'⟩ := run_fst_real zr tw hz (n + 1)
    have hz' := hz
    choose zr' hzr' using hz'
    have hstep : (run zr tw (n + 1 + 1)).2.1
        = Ideal.exp ((run zr tw (n + 1)).1 - (run zr tw (n + 1 + 1)).1) * (run zr tw (n + 1)).2.1
          + ∑ c : Fin 1280, Ideal.exp (zr (vcol (n + 1) c) - (run zr tw (n + 1 + 1)).1) := rfl
    rw [hstep, ih, Finset.sum_range_succ _ (n + 1), ha, ha']
    congr 1
    simp only [hzr']
    exact rescale a a' (Finset.range (n + 1)) (fun j c => zr' (vcol j c))

end Cert.LinearCE

end
-- ==== Proof.Math2.lean ====
/-
  From tiles to the whole row, and the two row losses.  The 25 tiles of 1280 columns enumerate the 32000 columns once
  each, so a fold of max or a sum over (tile, lane) is the fold or sum over the columns; a label word below 32000 is the
  column word of exactly one (tile, lane), so the label sum picks that column's logit.  With real logits
  m + log l - z_label = -((z_label - M) - log ∑ exp (z - M)), and on an ignored row both losses are 0.
-/
import proofs.«401228_j17970143166524_3_alg».proof.Proof.Spec
import proofs.«401228_j17970143166524_3_alg».proof.Proof.Math1

noncomputable section

open scoped BigOperators

namespace Cert.LinearCE

open Idealize.ShloMosaic

/-- The tiles enumerate the columns: (tile j, lane c) is column j * 1280 + c. -/
def m2_tileEquiv : Fin 25 × Fin 1280 ≃ Fin 32000 where
  toFun p := ⟨p.1.val * 1280 + p.2.val, by have := p.1.isLt; have := p.2.isLt; omega⟩
  invFun v := (⟨v.val / 1280, by have := v.isLt; omega⟩, ⟨v.val % 1280, Nat.mod_lt _ (by norm_num)⟩)
  left_inv p := by
    rcases p with ⟨⟨j, hj⟩, ⟨c, hc⟩⟩
    simp only [Prod.mk.injEq, Fin.mk.injEq]
    constructor <;> omega
  right_inv v := by
    rcases v with ⟨v, hv⟩
    simp only [Fin.mk.injEq]
    omega

/-- Below tile 25 the column of (tile, lane) needs no reduction modulo 32000. -/
theorem m2_vcol_eq (j : Fin 25) (c : Fin 1280) : vcol j.val c = m2_tileEquiv (j, c) := by
  apply Fin.ext
  have := j.isLt
  have := c.isLt
  simp only [vcol, m2_tileEquiv, Equiv.coe_fn_mk]
  omega

/-- A fold of max from -∞ is the finite supremum. -/
theorem m2_fold_max_eq_sup {ι : Type*} (s : Finset ι) (g : ι → EReal) : s.fold max ⊥ g = s.sup g := rfl

theorem fold_tiles (zr : Fin 32000 → EReal) : (Finset.range 25).fold max ⊥ (tileMax zr) = rowMax zr := by
  unfold rowMax
  rw [m2_fold_max_eq_sup, m2_fold_max_eq_sup]
  apply le_antisymm
  · refine Finset.sup_le fun j _ => ?_
    unfold tileMax
    rw [m2_fold_max_eq_sup]
    exact Finset.sup_le fun c _ => Finset.le_sup (f := zr) (Finset.mem_univ _)
  · refine Finset.sup_le fun v _ => ?_
    have hv := v.isLt
    have hj : v.val / 1280 ∈ Finset.range 25 := Finset.mem_range.2 (by omega)
    refine le_trans ?_ (Finset.le_sup (f := tileMax zr) hj)
    unfold tileMax
    rw [m2_fold_max_eq_sup]
    have hc : v = vcol (v.val / 1280) ⟨v.val % 1280, Nat.mod_lt _ (by norm_num)⟩ := by
      apply Fin.ext
      simp only [vcol]
      omega
    conv_lhs => rw [hc]
    exact Finset.le_sup (f := fun c => zr (vcol (v.val / 1280) c)) (Finset.mem_univ _)

theorem sum_tiles (f : Fin 32000 → EReal) :
    ∑ j ∈ Finset.range 25, ∑ c : Fin 1280, f (vcol j c) = ∑ v : Fin 32000, f v := by
  rw [Finset.sum_range (fun j => ∑ c : Fin 1280, f (vcol j c))]
  rw [← Fintype.sum_prod_type' (fun (j : Fin 25) (c : Fin 1280) => f (vcol j.val c))]
  exact Fintype.sum_equiv m2_tileEquiv _ _ (fun p => by rw [m2_vcol_eq])

/-- Below tile 25 nothing wraps in 32 bits: the column word is the label exactly when the column is the label's. -/
theorem m2_vword_eq_iff (j : ℕ) (hj : j < 25) (c : Fin 1280) (tw : BitVec 32) (h : tw.toNat < 32000) :
    vword j c = tw ↔ vcol j c = tcol tw := by
  have hc := c.isLt
  unfold vword vcol tcol
  rw [← BitVec.toNat_inj, Fin.mk.injEq]
  have e1 : j % 2 ^ 32 = j := Nat.mod_eq_of_lt (by omega)
  have e2 : c.val % 2 ^ 32 = c.val := Nat.mod_eq_of_lt (by omega)
  have e3 : (1280 : ℕ) % 2 ^ 32 = 1280 := by norm_num
  have e4 : j * 1280 % 2 ^ 32 = j * 1280 := Nat.mod_eq_of_lt (by omega)
  have e5 : (j * 1280 + c.val) % 2 ^ 32 = j * 1280 + c.val := Nat.mod_eq_of_lt (by omega)
  have e6 : (j * 1280 + c.val) % 32000 = j * 1280 + c.val := Nat.mod_eq_of_lt (by omega)
  have e7 : tw.toNat % 32000 = tw.toNat := Nat.mod_eq_of_lt h
  simp only [BitVec.toNat_add, BitVec.toNat_mul, BitVec.toNat_ofNat, e1, e2, e3, e4, e5, e6, e7]

theorem label_tiles (zr : Fin 32000 → EReal) (tw : BitVec 32) (h : tw.toNat < 32000) :
    ∑ j ∈ Finset.range 25, ∑ c : Fin 1280, (if vword j c = tw then zr (vcol j c) else 0) = zr (tcol tw) := by
  have key : ∀ j ∈ Finset.range 25, ∑ c : Fin 1280, (if vword j c = tw then zr (vcol j c) else 0)
      = ∑ c : Fin 1280, (fun v => if v = tcol tw then zr v else 0) (vcol j c) := by
    intro j hj
    refine Finset.sum_congr rfl fun c _ => ?_
    simp only [m2_vword_eq_iff j (Finset.mem_range.1 hj) c tw h]
  rw [Finset.sum_congr rfl key, sum_tiles (fun v => if v = tcol tw then zr v else 0)]
  simp

/-- The coercion of a finite sum of reals is the sum of the coercions. -/
theorem m2_coe_sum_real {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem logit_real (x : Fin 8192 → Fin 2048 → EReal) (w : Fin 32000 → Fin 2048 → EReal)
    (hx : ∀ r k, ∃ a : ℝ, x r k = (a : EReal)) (hw : ∀ v k, ∃ a : ℝ, w v k = (a : EReal)) (r : Fin 8192) (v : Fin 32000) :
    ∃ a : ℝ, logit x w r v = (a : EReal) := by
  choose xa hxa using hx
  choose wa hwa using hw
  refine ⟨∑ k : Fin 2048, xa r k * wa v k, ?_⟩
  unfold logit
  rw [m2_coe_sum_real]
  refine Finset.sum_congr rfl fun k _ => ?_
  rw [hxa, hwa, EReal.coe_mul]

theorem lossK_eq_lossR (zr : Fin 32000 → EReal) (tw : BitVec 32) (hz : ∀ v, ∃ a : ℝ, zr v = (a : EReal))
    (ht : tw = ignoreWord ∨ tw.toNat < 32000) : lossK zr tw = lossR zr tw := by
  rcases ht with ht | ht
  · unfold lossK lossR maskf
    rw [if_pos ht, if_pos ht, mul_zero]
  · have hne : tw ≠ ignoreWord := by
      intro h
      subst h
      exact absurd ht (by decide)
    have hsafe : safeWord tw = tw := by unfold safeWord; rw [if_neg hne]
    unfold lossK lossR maskf
    rw [if_neg hne, if_neg hne, mul_one, hsafe]
    have h1 : (run zr tw 25).1 = rowMax zr := by rw [run_fst, fold_tiles]
    have h3 : (run zr tw 25).2.2 = zr (tcol tw) := by rw [run_thd, label_tiles zr tw ht]
    have h2 : (run zr tw 25).2.1 = ∑ v : Fin 32000, Ideal.exp (zr v - rowMax zr) := by
      have h := run_snd zr tw hz 24
      change (run zr tw 25).2.1
        = ∑ j ∈ Finset.range 25, ∑ c : Fin 1280, Ideal.exp (zr (vcol j c) - (run zr tw 25).1) at h
      rw [h, h1, sum_tiles (fun v => Ideal.exp (zr v - rowMax zr))]
    obtain ⟨M, hM⟩ : ∃ a : ℝ, rowMax zr = (a : EReal) := by
      have h := run_fst_real zr tw hz 24
      change ∃ a : ℝ, (run zr tw 25).1 = (a : EReal) at h
      rwa [h1] at h
    rw [h1, h2, h3, hM]
    choose za hza using hz
    simp only [hza]
    have hexp : ∀ v, Ideal.exp ((za v : EReal) - (M : EReal)) = ((Real.exp (za v - M) : ℝ) : EReal) := by
      intro v
      rw [← EReal.coe_sub]
      rfl
    simp only [hexp]
    rw [← m2_coe_sum_real]
    have hpos : 0 < ∑ v : Fin 32000, Real.exp (za v - M) :=
      Finset.sum_pos (fun v _ => Real.exp_pos _) ⟨⟨0, by norm_num⟩, Finset.mem_univ _⟩
    rw [Ideal.log_coe, if_neg (not_le.2 hpos)]
    rw [← EReal.coe_add, ← EReal.coe_sub, ← EReal.coe_sub, ← EReal.coe_sub, ← EReal.coe_neg]
    rw [EReal.coe_eq_coe_iff]
    ring

open Idealize.ShloMosaic in
theorem specK_eq_specR (X : (⟨3, ![4, 2048, 2048]⟩ : Shape).Idx → EReal) (T : (⟨2, ![4, 2048]⟩ : Shape).Idx → BitVec 32)
    (W : (⟨2, ![32000, 2048]⟩ : Shape).Idx → EReal) (hX : ∀ i, ∃ a : ℝ, X i = (a : EReal)) (hW : ∀ i, ∃ a : ℝ, W i = (a : EReal))
    (hT : ∀ i, T i = ignoreWord ∨ (T i).toNat < 32000) : specK X T W = specR X T W := by
  unfold specK specR
  congr 1
  refine Finset.sum_congr rfl fun r _ => ?_
  exact lossK_eq_lossR _ _ (fun v => logit_real _ _ (fun r k => hX _) (fun v k => hW _) r v) (hT _)

end Cert.LinearCE

end
-- ==== Proof.Pre.lean ====
/-
  What the precondition says of the three arguments: every entry of the two float arrays is a real number (its absolute
  value is below +∞), and every label is the ignored one or a vocabulary column (signed, between 0 and 32000).
-/
import proofs.«401228_j17970143166524_3_alg».proof.Pre_finite_inputs
import proofs.«401228_j17970143166524_3_alg».proof.Proof.Gen.Pre_finite_inputs
import proofs.«401228_j17970143166524_3_alg».proof.Proof.Spec
import Idealize.ShloMosaic.Lib.ReduceAll
import Idealize.ShloMosaic.Lib.StableHlo.Predicate

noncomputable section

namespace Cert.LinearCE.Pre

open Idealize.ShloMosaic Cert.LinearCE

/-- The bit pattern 0x7F800000 denotes +∞. -/
theorem inf_bits : Ideal.ofBits .f32 0x7F800000#32 = (⊤ : EReal) := by simp [Ideal.ofBits, Ideal.ieee]

/-- An extended real whose absolute value max x (-x) is below +∞ is a real number: -∞ and +∞ both have absolute value +∞. -/
theorem real_of_abs_lt (x : EReal)
    (hx : Ideal.cmp .olt (max x (-x)) (Ideal.ofBits .f32 0x7F800000#32) = 1#1) : ∃ a : ℝ, x = (a : EReal) := by
  rw [inf_bits] at hx
  have hlt : max x (-x) < ⊤ := by
    simpa [Ideal.cmp, StableHlo.Predicate.ofBool_eq_one_iff] using hx
  induction x using EReal.rec with
  | bot => simp at hlt
  | top => simp at hlt
  | coe r => exact ⟨r, rfl⟩

/-- A label word that equals the ignored word, or is signed at least 0 and signed below 32000, is the ignored word or
    has an unsigned value below 32000: a word whose signed value is not negative has the same unsigned value. -/
theorem label_of_bits (t : BitVec 32)
    (ht : IntOp.ori (IntOp.cmpi .eq t 4294967196#32)
      (IntOp.andi (IntOp.cmpi .sge t 0#32) (IntOp.cmpi .slt t 32000#32)) = 1#1) :
    t = ignoreWord ∨ t.toNat < 32000 := by
  rcases IntOp.ori_eq_one.1 ht with h1 | h2
  · exact Or.inl (IntOp.cmpi_eq.1 h1)
  · obtain ⟨hge, hlt⟩ := IntOp.andi_eq_one.1 h2
    have hge' := IntOp.cmpi_sge.1 hge
    have hlt' := IntOp.cmpi_slt.1 hlt
    have h0 : (0#32 : BitVec 32).toInt = 0 := by decide
    have h32 : (32000#32 : BitVec 32).toInt = 32000 := by decide
    rw [h0] at hge'
    rw [h32] at hlt'
    have hb := t.isLt
    right
    rw [BitVec.toInt_eq_toNat_cond] at hge' hlt'
    split_ifs at hge' hlt' <;> omega

theorem decode [Cert.Pre_finite_inputs.Facts]
    (X : FVec Ideal Cert.Pre_finite_inputs.S4x2048x2048 .f32) (T : IVec Cert.Pre_finite_inputs.S4x2048 32)
    (W : FVec Ideal Cert.Pre_finite_inputs.S32000x2048 .f32)
    (h : Cert.Pre_finite_inputs.fn (F := Ideal) X T W = fun _ => 1#1) :
    (∀ i, ∃ a : ℝ, X i = (a : EReal)) ∧ (∀ i, ∃ a : ℝ, W i = (a : EReal))
      ∧ (∀ i, T i = ignoreWord ∨ (T i).toNat < 32000) := by
  -- the result has one index; read the claim there: it is the conjunction of the three reductions by "and"
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h38, hT⟩ := IntOp.andi_eq_one.1 h0
  obtain ⟨hX, hW⟩ := IntOp.andi_eq_one.1 h38
  -- a reduction by "and" over all axes that is 1 had a 1 at every element
  refine ⟨fun i => ?_, fun i => ?_, fun i => ?_⟩
  · exact real_of_abs_lt (X i) (Host.reduce_andi_all _ _ _ _ _ hX i)
  · exact real_of_abs_lt (W i) (Host.reduce_andi_all _ _ _ _ _ hW i)
  · exact label_of_bits (T i) (Host.reduce_andi_all _ _ _ _ _ hT i)

end Cert.LinearCE.Pre

end
-- ==== Proof.Pieces.lean ====
/-
  What one grid point leaves in the three running vectors and in the loss block, as pure terms of what it read.
  At a tile that opens a row block the running maximum, sum and label logit restart from -∞, 0, 0 before the tile is
  folded in; elsewhere the tile is folded into what the previous point left; at the last tile the loss block is
  (m + log l - label logit) * mask of the three updated vectors.
-/
import proofs.«401228_j17970143166524_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

variable (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
  (x0 : Vec F S1024x2048 .bf16) (x1 : Vec F S1280x2048 .bf16) (x2 : Vec F S1024x1 .i32) (x3 : Vec F S1024x1 .f32)
  (xs0 xs1 xs2 : Vec F S1024x1 .f32)

/-- The running maximum after a tile folded into `ms`. -/
abbrev newM (ms : Vec F S1024x1 .f32) : FVec F S1024x1 .f32 := k0_pay2 (k0_pay9 x0 x1 ms)
/-- The running sum after a tile folded into (`ms`, `ls`). -/
abbrev newL (ms ls : Vec F S1024x1 .f32) : FVec F S1024x1 .f32 := k0_pay1 (k0_pay10 x0 x1 ms) (k0_pay11 x0 x1 ms) ls
/-- The label logit after a tile folded into `ts`. -/
abbrev newT (ts : Vec F S1024x1 .f32) : FVec F S1024x1 .f32 := k0_pay8 i x0 x1 x2 ts

/-- The offsets of a whole-block rectangle: both zero, as the constant zero function. -/
private theorem zero_off : (![0, 0] : Fin 2 → Nat) = fun _ => 0 := funext fun a => by fin_cases a <;> rfl

theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = newM x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = newL x0 x1 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = newT i x0 x1 x2 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = newM x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = newL x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_B_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = newT i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = newM x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = newL x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem sout_C_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = newT i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

theorem out_C_4 (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2
      = k0_pay3 (newM x0 x1 xs0) (newL x0 x1 xs0 xs1) (newT i x0 x1 x2 xs2) x3 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero zero_off]
  simp only [View.readAt_eq_ld, harg2.read_unread, harg3.read_unread, harg4.read_unread, harg5.read_unread, harg7.read_unread, harg8.read_unread, harg9.read_unread, View.ld_unit_zero (S := S1024x2048) zero_off, View.ld_unit_zero (S := S1280x2048) zero_off, View.ld_unit_zero (S := S1024x1) zero_off, View.readCov_unit_zero (S := S1024x1) _ zero_off]

end Cert.KernelIdeal.Pieces

end
-- ==== Proof.Payload.lean ====
/-
  The body's arithmetic at one row, over the extended reals.  Row p of a token block with features x0 p ·, against the
  1280 columns of a vocabulary tile with features x1 c ·, has tile logits ∑ k, x0 p k * x1 c k.  The updated running
  maximum, running sum and label logit at row p are the specification's step of the previous ones, and the loss block at
  row p is (m + log l - label logit) * mask.
-/
import proofs.«401228_j17970143166524_3_alg».proof.Proof.Gen.KernelIdeal.Skeleton
import proofs.«401228_j17970143166524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LinearCE

variable (x0 : Vec Ideal S1024x2048 .bf16) (x1 : Vec Ideal S1280x2048 .bf16) (x2 : Vec Ideal S1024x1 .i32)
  (x3 : Vec Ideal S1024x1 .f32) (ms ls ts : Vec Ideal S1024x1 .f32) (p : Fin 1024)

/-! ## Layout operations read at an index -/

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast along the lanes reads, at (r, c), the column at r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The index a lane reduction of a [1024, 1280] block reads at row r and lane c is (r, c). -/
theorem lift_row (h : S1024x1280.Reduces [1] S1024) (r : Fin 1024) (c : Fin 1280) :
    h.lift (ix1 r) c = ix2 r c :=
  funext fun a => Fin.ext (match a with | ⟨0, _⟩ => rfl | ⟨1, _⟩ => rfl)

/-- The bit pattern of the maximum's initial accumulator is -∞. -/
theorem ofBits_neg_inf_f32 : Ideal.ofBits .f32 0xFF800000#32 = (⊥ : EReal) := by
  simp [Ideal.ofBits, Ideal.ieee]

/-- The lane sum of a [1024, 1280] block at row r is the sum over the 1280 lanes. -/
theorem laneSum_apply (h : S1024x1280.Reduces [1] S1024) (hφ : FKind.Formats .f32)
    (hacc : (0x00000000#32 : BitVec 32) = FKind.add.neutral .f32 hφ) (src : FVec Ideal S1024x1280 .f32) (r : Fin 1024) :
    multiReduction .add [1] S1024 src 0x00000000#32 h hφ hacc (ix1 r) = ∑ c : Fin 1280, src (ix2 r c) := by
  refine (Ideal.multiReduction_add_single _ _ _ _ _ _).trans ?_
  exact Finset.sum_congr rfl fun c _ => congrArg src (lift_row h r c)

/-- The lane maximum of a [1024, 1280] block at row r is the fold of max from -∞ over the 1280 lanes. -/
theorem laneMax_apply (h : S1024x1280.Reduces [1] S1024) (hφ : FKind.Formats .f32)
    (hacc : (0xFF800000#32 : BitVec 32) = FKind.maximumf.neutral .f32 hφ) (src : FVec Ideal S1024x1280 .f32) (r : Fin 1024) :
    multiReduction .maximumf [1] S1024 src 0xFF800000#32 h hφ hacc (ix1 r)
      = (Finset.univ : Finset (Fin 1280)).fold max ⊥ (fun c => src (ix2 r c)) := by
  refine (Ideal.multiReduction_maximumf_single _ _ _ _ _ _).trans ?_
  rw [show (FloatOps.ofBits (F := Ideal) .f32 0xFF800000#32 : EReal) = ⊥ from ofBits_neg_inf_f32]
  exact Finset.fold_congr fun c _ => congrArg src (lift_row h r c)

/-- A select on the bit of a word equality is the if-then-else on the equality. -/
theorem select_cmpi_eq {α : Type} {w : ℕ} (a b : BitVec w) (A B : α) :
    Scalar.select (IntOp.cmpi .eq a b) A B = if a = b then A else B := by
  unfold Scalar.select
  by_cases h : a = b
  · subst h; simp [IntOp.cmpi]
  · have hb : (a == b) = false := beq_eq_false_iff_ne.mpr h
    simp [IntOp.cmpi, hb, h]

/-! ## The block product at an index -/

theorem lhs_pay7_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
theorem lhs_pay7_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhs_pay7_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
theorem rhs_pay7_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The tile's logits: the block product contracts the feature axis of both operands. -/
theorem pay7_apply (c : Fin 1280) :
    k0_pay7 x0 x1 (ix2 p c) = ∑ k : Fin 2048, x0 (ix2 p k) * x1 (ix2 c k) := by
  unfold k0_pay7
  simp only [matmul, shapeCast_self]
  rw [Ideal.matmul_constant_zero_apply, ← Equiv.sum_comp (ValueIdx.contrEquiv1 dot_S1024x2048_S1280x2048_S1024x1280_1_1_0_0_n_n 2048 rfl rfl).symm]
  refine Finset.sum_congr rfl fun k _ => ?_
  have hk := ValueIdx.contrEquiv1_symm_val dot_S1024x2048_S1280x2048_S1024x1280_1_1_0_0_n_n 2048 rfl rfl k
  have el : dot_S1024x2048_S1280x2048_S1024x1280_1_1_0_0_n_n.lhsIdx (ix2 p c) ((ValueIdx.contrEquiv1 dot_S1024x2048_S1280x2048_S1024x1280_1_1_0_0_n_n 2048 rfl rfl).symm k) = ix2 p k := funext fun a => Fin.ext (by
    match a with
    | ⟨0, _⟩ => exact lhs_pay7_0 _ _
    | ⟨1, _⟩ => exact (lhs_pay7_1 _ _).trans hk)
  have er : dot_S1024x2048_S1280x2048_S1024x1280_1_1_0_0_n_n.rhsIdx (ix2 p c) ((ValueIdx.contrEquiv1 dot_S1024x2048_S1280x2048_S1024x1280_1_1_0_0_n_n 2048 rfl rfl).symm k) = ix2 c k := funext fun a => Fin.ext (by
    match a with
    | ⟨0, _⟩ => exact rhs_pay7_0 _ _
    | ⟨1, _⟩ => exact (rhs_pay7_1 _ _).trans hk)
  rw [el, er]

/-! ## The payloads at row p -/

theorem pay4_apply : k0_pay4 (F := Ideal) (ix2 p 0) = (⊥ : EReal) := by
  unfold k0_pay4
  simp only [shapeCast_self]
  exact ofBits_neg_inf_f32

theorem pay5_apply : k0_pay5 (F := Ideal) (ix2 p 0) = (0 : EReal) := by
  unfold k0_pay5
  simp only [shapeCast_self]
  exact Ideal.ofBits_zero_f32

theorem pay6_apply : k0_pay6 (F := Ideal) (ix2 p 0) = (0 : EReal) := by
  unfold k0_pay6
  simp only [shapeCast_self]
  exact Ideal.ofBits_zero_f32

/-- The running maximum after the tile, at row p: the previous one against the tile's maximum. -/
theorem pay9_apply (zr : Fin 32000 → EReal) (n : ℕ)
    (hz : ∀ c : Fin 1280, zr (vcol n c) = ∑ k : Fin 2048, x0 (ix2 p k) * x1 (ix2 c k)) :
    k0_pay9 x0 x1 ms (ix2 p 0) = max (ms (ix2 p 0)) (tileMax zr n) := by
  unfold k0_pay9
  refine (maximumf_apply _ _ _).trans ?_
  refine congrArg (max (ms (ix2 p 0))) ?_
  refine (shapeCast_a_a1_apply _ _ p 0).trans ?_
  refine (laneMax_apply _ _ _ _ p).trans ?_
  unfold tileMax
  refine Finset.fold_congr fun c _ => ?_
  rw [pay7_apply, hz]

/-- The updated running maximum at row `p`. -/
theorem newM_apply (zr : Fin 32000 → EReal) (n : ℕ)
    (hz : ∀ c : Fin 1280, zr (vcol n c) = ∑ k : Fin 2048, x0 (ix2 p k) * x1 (ix2 c k)) :
    k0_pay2 (k0_pay9 x0 x1 ms) (ix2 p 0) = max (ms (ix2 p 0)) (tileMax zr n) := by
  unfold k0_pay2
  simp only [shapeCast_self]
  exact pay9_apply x0 x1 ms p zr n hz

/-- The updated running sum at row `p`. -/
theorem newL_apply (zr : Fin 32000 → EReal) (n : ℕ)
    (hz : ∀ c : Fin 1280, zr (vcol n c) = ∑ k : Fin 2048, x0 (ix2 p k) * x1 (ix2 c k)) :
    k0_pay1 (k0_pay10 x0 x1 ms) (k0_pay11 x0 x1 ms) ls (ix2 p 0)
      = Ideal.exp (ms (ix2 p 0) - max (ms (ix2 p 0)) (tileMax zr n)) * ls (ix2 p 0)
        + ∑ c : Fin 1280, Ideal.exp (zr (vcol n c) - max (ms (ix2 p 0)) (tileMax zr n)) := by
  have h9 := pay9_apply x0 x1 ms p zr n hz
  unfold k0_pay1
  simp only [shapeCast_self]
  refine (addf_apply _ _ _).trans ?_
  refine congrArg₂ (· + ·) ?_ ?_
  · refine (mulf_apply _ _ _).trans ?_
    refine congrArg (· * ls (ix2 p 0)) ?_
    unfold k0_pay10
    show Ideal.exp (ms (ix2 p 0) - k0_pay9 x0 x1 ms (ix2 p 0)) = _
    rw [h9]
  · refine (shapeCast_a_a1_apply _ _ p 0).trans ?_
    unfold k0_pay11
    refine (laneSum_apply _ _ _ _ p).trans ?_
    refine Finset.sum_congr rfl fun c _ => ?_
    show Ideal.exp (k0_pay7 x0 x1 (ix2 p c) - broadcastTo S1024x1280 (k0_pay9 x0 x1 ms) _ (ix2 p c)) = _
    rw [broadcastTo_a1_ab_apply, pay7_apply, h9, hz]

/-- The updated label logit at row `p`: the tile's logits at the columns whose word is the row's label. -/
theorem newT_apply (i : grid0.Coords) (zr : Fin 32000 → EReal)
    (hz : ∀ c : Fin 1280, zr (vcol (i 1).val c) = ∑ k : Fin 2048, x0 (ix2 p k) * x1 (ix2 c k)) :
    k0_pay8 i x0 x1 x2 ts (ix2 p 0)
      = ts (ix2 p 0) + ∑ c : Fin 1280, (if vword (i 1).val c = x2 (ix2 p 0) then zr (vcol (i 1).val c) else 0) := by
  unfold k0_pay8
  simp only [shapeCast_self]
  refine (addf_apply _ _ _).trans ?_
  refine congrArg (ts (ix2 p 0) + ·) ?_
  refine (shapeCast_a_a1_apply _ _ p 0).trans ?_
  refine (laneSum_apply _ _ _ _ p).trans ?_
  refine Finset.sum_congr rfl fun c _ => ?_
  refine (select_apply _ _ _ _).trans ?_
  rw [broadcast_apply, pay7_apply, ← hz]
  show Scalar.select (IntOp.cmpi .eq (broadcastTo S1024x1280 _ _ (ix2 p c)) (broadcastTo S1024x1280 x2 _ (ix2 p c))) _ _ = _
  rw [broadcastTo_1b_ab_apply, broadcastTo_a1_ab_apply, select_cmpi_eq]
  have hw : addi (broadcast S1x1280 (Scalar.muli (BitVec.ofNat 32 (i 1).val) 1280#32)) (iota .tc S1x1280 32 [1] iota_S1x1280_d1_w32) (ix2 (0 : Fin 1) c)
      = vword (i 1).val c := by
    show IntOp.addi (Scalar.muli (BitVec.ofNat 32 (i 1).val) 1280#32) (iota .tc S1x1280 32 [1] iota_S1x1280_d1_w32 (ix2 (0 : Fin 1) c)) = _
    rw [iota_single_apply]
    rfl
  rw [hw]
  exact if_congr Iff.rfl rfl Ideal.ofBits_zero_f32

/-- The loss block at row `p`. -/
theorem pay3_apply : k0_pay3 ms ls ts x3 (ix2 p 0)
    = ((ms (ix2 p 0) + Ideal.log (ls (ix2 p 0))) - ts (ix2 p 0)) * x3 (ix2 p 0) := by
  unfold k0_pay3
  simp only [shapeCast_self]
  rfl

end Cert.KernelIdeal.Payload

end
-- ==== Proof.Blocks.lean ====
/-
  The four input blocks of a grid point, read as rows of the argument arrays.  Point t is token block t / 25 and
  vocabulary tile t % 25.  Row p of its token block is row (t / 25) * 1024 + p of the 8192 tokens: its features are that
  row of the hidden array (flattened over batch and position), its label word the row's label with the ignored one
  replaced by 0, its mask 1 unless the label is the ignored one.  Row c of its vocabulary block is column
  (t % 25) * 1280 + c of the weight array.
-/
import proofs.«401228_j17970143166524_3_alg».proof.Proof.Gen.KernelIdeal.Frame
import proofs.«401228_j17970143166524_3_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx Cert.LinearCE

variable (m : (ℓ : Loc nD τ sig) → Buf (Elt Ideal) ℓ)

/-- The three argument arrays of core `c`. -/
abbrev argX (c : Dev nD) : S4x2048x2048.Idx → EReal := m ((c : Thread nD τ).loc main_arg0)
abbrev argT (c : Dev nD) : S4x2048.Idx → BitVec 32 := m ((c : Thread nD τ).loc main_arg1)
abbrev argW (c : Dev nD) : S32000x2048.Idx → EReal := m ((c : Thread nD τ).loc main_arg2)

/-- The blocks point `t` reads, at their literal types. -/
abbrev hblk (c : Dev nD) (t : Fin cfg0.N) : Vec Ideal S1024x2048 .bf16 := iblk m c 0 t
abbrev wblk (c : Dev nD) (t : Fin cfg0.N) : Vec Ideal S1280x2048 .bf16 := iblk m c 1 t
abbrev tblk (c : Dev nD) (t : Fin cfg0.N) : Vec Ideal S1024x1 .i32 := iblk m c 2 t
abbrev mblk (c : Dev nD) (t : Fin cfg0.N) : Vec Ideal S1024x1 .f32 := iblk m c 3 t

/-- The token row that row `p` of point `t`'s token block is. -/
def rowOf (t : Fin cfg0.N) (p : Fin 1024) : Fin 8192 :=
  ⟨t.val / 25 * 1024 + p.val, by have := t.isLt; have h : cfg0.N = 200 := N_0; have := p.isLt; omega⟩

theorem coords1 (t : Fin cfg0.N) : ((grid0.coords t) 1).val = t.val % 25 := by
  exact (by decide +kernel : ∀ t : Fin grid0.N, ((grid0.coords t) 1).val = t.val % 25) t

/-! ## The index maps over the grid -/

/-- The token windows (hidden rows, labels, masks) sit at block (t / 25, 0), the weight window at block (t % 25, 0). -/
theorem idx_0 : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
theorem idx_1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
theorem idx_2 : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)
theorem idx_3 : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-! ## The arrays the windows read, as the operations before the region leave them -/

/-- Window 0's array: the hidden array flattened over batch and position (the format change is the identity on
    extended reals). -/
theorem V_v1 (c : Dev nD) : (V m c main_v1 : S8192x2048.Idx → EReal)
    = (truncf (F := Ideal) .bf16 (shapeCast S8192x2048 (argX m c) shapeCasts_S4x2048x2048_S8192x2048) bitsLt_bf16_f32 : S8192x2048.Idx → EReal) := by
  dsimp only [Gen.V, Gen.V0]
  simp only [Gen.hostOps0, Gen.hostOps0_1, Gen.hostOps0_2, List.flatten_cons, List.flatten_nil, List.append_nil, List.cons_append, List.nil_append]
  after_results
  rfl

/-- Window 1's array: the weight array. -/
theorem V_v2 (c : Dev nD) : (V m c main_v2 : S32000x2048.Idx → EReal)
    = (truncf (F := Ideal) .bf16 (argW m c) bitsLt_bf16_f32 : S32000x2048.Idx → EReal) := by
  dsimp only [Gen.V, Gen.V0]
  simp only [Gen.hostOps0, Gen.hostOps0_1, Gen.hostOps0_2, List.flatten_cons, List.flatten_nil, List.append_nil, List.cons_append, List.nil_append]
  after_results

/-- The flattened labels, the ignored word on every row, and the bit "the label is not the ignored one". -/
abbrev flatT (c : Dev nD) : S8192.Idx → BitVec 32 := shapeCast S8192 (argT m c) shapeCasts_S4x2048_S8192
abbrev ignT : S8192.Idx → BitVec 32 := broadcastInDim S8192 ![] bcast_S_S8192 (constantI S_ 32 4294967196#32)
abbrev neT (c : Dev nD) : S8192.Idx → BitVec 1 := cmpi .ne (flatT m c) ignT

/-- Window 2's array: the flattened labels where the bit is set, 0 elsewhere, as a column. -/
theorem V_v7 (c : Dev nD) : (V m c main_v7 : S8192x1.Idx → BitVec 32)
    = shapeCast S8192x1 (select (neT m c) (flatT m c) (broadcastInDim S8192 ![] bcast_S_S8192 (id (constantI S_ 32 0#32)))) shapeCasts_S8192_S8192x1 := by
  dsimp only [Gen.V, Gen.V0]
  simp only [Gen.hostOps0, Gen.hostOps0_1, Gen.hostOps0_2, List.flatten_cons, List.flatten_nil, List.append_nil, List.cons_append, List.nil_append]
  after_results
  rfl

/-- Window 3's array: the bit as a number, as a column. -/
theorem V_v9 (c : Dev nD) : (V m c main_v9 : S8192x1.Idx → EReal)
    = shapeCast S8192x1 (uitofp (F := Ideal) .f32 (neT m c)) shapeCasts_S8192_S8192x1 := by
  dsimp only [Gen.V, Gen.V0]
  simp only [Gen.hostOps0, Gen.hostOps0_1, Gen.hostOps0_2, List.flatten_cons, List.flatten_nil, List.append_nil, List.cons_append, List.nil_append]
  after_results
  rfl

/-! ## The same arrays at an index -/

/-- Row r of the flattened [8192, 2048] array is (r / 2048, r % 2048) of the [4, 2048, 2048] one: both sit at row-major
    position r * 2048 + k. -/
theorem V_v1_apply (c : Dev nD) (r : Fin 8192) (k : Fin 2048) :
    (V m c main_v1 : S8192x2048.Idx → EReal) (ix2 r k) = xOf (argX m c) r k := by
  rw [V_v1]
  show shapeCast S8192x2048 (argX m c) shapeCasts_S4x2048x2048_S8192x2048 (ix2 r k) = _
  unfold xOf
  refine shapeCast_apply _ _ _ _ ?_
  rw [Shape.rowMajor_val_three, Shape.rowMajor_val_two]
  show ((rowB r).val * 2048 + (rowS r).val) * 2048 + k.val = r.val * 2048 + k.val
  unfold rowB rowS
  show (r.val / 2048 * 2048 + r.val % 2048) * 2048 + k.val = r.val * 2048 + k.val
  omega

theorem V_v2_apply (c : Dev nD) (v : Fin 32000) (k : Fin 2048) :
    (V m c main_v2 : S32000x2048.Idx → EReal) (ix2 v k) = wOf (argW m c) v k := by
  rw [V_v2]; rfl

/-- The flattened label of row r is the label at (r / 2048, r % 2048). -/
theorem flatT_apply (c : Dev nD) (r : Fin 8192) : flatT m c (ix1 r) = tOf (argT m c) r := by
  unfold tOf
  refine shapeCast_apply _ _ _ _ ?_
  rw [Shape.rowMajor_val_two, Shape.rowMajor_val_one]
  show (rowB r).val * 2048 + (rowS r).val = r.val
  unfold rowB rowS
  show r.val / 2048 * 2048 + r.val % 2048 = r.val
  omega

/-- The comparison "the words differ" as a bit. -/
theorem cmpi_ne_word (x y : BitVec 32) : IntOp.cmpi .ne x y = if x = y then 0#1 else 1#1 := by
  show BitVec.ofBool (x != y) = _
  by_cases h : x = y
  · subst h; rw [if_pos rfl, bne_self_eq_false]; rfl
  · rw [if_neg h, (bne_iff_ne.mpr h : (x != y) = true)]; rfl

/-- The bit "row r's label is not the ignored one". -/
theorem neT_apply (c : Dev nD) (r : Fin 8192) :
    neT m c (ix1 r) = if tOf (argT m c) r = ignoreWord then 0#1 else 1#1 := by
  show IntOp.cmpi .ne (flatT m c (ix1 r)) 4294967196#32 = _
  rw [flatT_apply, cmpi_ne_word]

/-- Row r of the label column: the label, or 0 for the ignored one. -/
theorem V_v7_apply (c : Dev nD) (r : Fin 8192) :
    (V m c main_v7 : S8192x1.Idx → BitVec 32) (ix2 r 0) = safeWord (tOf (argT m c) r) := by
  rw [V_v7]
  rw [shapeCast_apply _ _ (ix2 r 0) (ix1 r) (by rw [Shape.rowMajor_val_two, Shape.rowMajor_val_one]; show r.val = r.val * 1 + 0; omega)]
  rw [select_apply, neT_apply, flatT_apply]
  unfold safeWord
  by_cases h : tOf (argT m c) r = ignoreWord
  · rw [if_pos h, if_pos h, select_zero]; rfl
  · rw [if_neg h, if_neg h, select_one]

/-- Row r of the mask column: the bit read as a number, 0 for the ignored label and 1 otherwise. -/
theorem V_v9_apply (c : Dev nD) (r : Fin 8192) :
    (V m c main_v9 : S8192x1.Idx → EReal) (ix2 r 0) = maskf (tOf (argT m c) r) := by
  rw [V_v9]
  rw [shapeCast_apply _ _ (ix2 r 0) (ix1 r) (by rw [Shape.rowMajor_val_two, Shape.rowMajor_val_one]; show r.val = r.val * 1 + 0; omega)]
  show (((neT m c (ix1 r)).toNat : ℝ) : EReal) = _
  rw [neT_apply]
  unfold maskf
  by_cases h : tOf (argT m c) r = ignoreWord
  · rw [if_pos h, if_pos h]; simp
  · rw [if_neg h, if_neg h]; simp

/-! ## The blocks: a block's coordinate is its block index times the block's extent plus the coordinate inside -/

theorem hblk_apply (c : Dev nD) (t : Fin cfg0.N) (p : Fin 1024) (k : Fin 2048) :
    hblk m c t (ix2 p k) = xOf (argX m c) (rowOf t p) k := by
  show (V m c main_v1 : S8192x2048.Idx → EReal) (((cfg0.win 0).blk t).view.emb (ix2 p k)) = _
  have he : (((cfg0.win 0).blk t).view.emb (ix2 p k) : S8192x2048.Idx) = ix2 (rowOf t p) k := by
    obtain ⟨e0, e1⟩ := idx_0 t
    funext a; apply Fin.ext
    match a with
    | ⟨0, _⟩ => show win0_0.index t (0 : Fin 2) * 1024 + 1 * p.val = t.val / 25 * 1024 + p.val; omega
    | ⟨1, _⟩ => show win0_0.index t (1 : Fin 2) * 2048 + 1 * k.val = k.val; omega
  exact (congrArg (V m c main_v1 : S8192x2048.Idx → EReal) he).trans (V_v1_apply m c (rowOf t p) k)

theorem wblk_apply (c : Dev nD) (t : Fin cfg0.N) (cc : Fin 1280) (k : Fin 2048) :
    wblk m c t (ix2 cc k) = wOf (argW m c) (vcol (t.val % 25) cc) k := by
  show (V m c main_v2 : S32000x2048.Idx → EReal) (((cfg0.win 1).blk t).view.emb (ix2 cc k)) = _
  have he : (((cfg0.win 1).blk t).view.emb (ix2 cc k) : S32000x2048.Idx) = ix2 (vcol (t.val % 25) cc) k := by
    obtain ⟨e0, e1⟩ := idx_1 t
    funext a; apply Fin.ext
    match a with
    | ⟨0, _⟩ =>
      show win0_1.index t (0 : Fin 2) * 1280 + 1 * cc.val = (t.val % 25 * 1280 + cc.val) % 32000
      have hc : cc.val < 1280 := cc.isLt
      omega
    | ⟨1, _⟩ => show win0_1.index t (1 : Fin 2) * 2048 + 1 * k.val = k.val; omega
  exact (congrArg (V m c main_v2 : S32000x2048.Idx → EReal) he).trans (V_v2_apply m c (vcol (t.val % 25) cc) k)

theorem tblk_apply (c : Dev nD) (t : Fin cfg0.N) (p : Fin 1024) :
    tblk m c t (ix2 p 0) = safeWord (tOf (argT m c) (rowOf t p)) := by
  show (V m c main_v7 : S8192x1.Idx → BitVec 32) (((cfg0.win 2).blk t).view.emb (ix2 p 0)) = _
  have he : (((cfg0.win 2).blk t).view.emb (ix2 p 0) : S8192x1.Idx) = ix2 (rowOf t p) 0 := by
    obtain ⟨e0, e1⟩ := idx_2 t
    funext a; apply Fin.ext
    match a with
    | ⟨0, _⟩ => show win0_2.index t (0 : Fin 2) * 1024 + 1 * p.val = t.val / 25 * 1024 + p.val; omega
    | ⟨1, _⟩ => show win0_2.index t (1 : Fin 2) * 1 + 1 * 0 = 0; omega
  exact (congrArg (V m c main_v7 : S8192x1.Idx → BitVec 32) he).trans (V_v7_apply m c (rowOf t p))

theorem mblk_apply (c : Dev nD) (t : Fin cfg0.N) (p : Fin 1024) :
    mblk m c t (ix2 p 0) = maskf (tOf (argT m c) (rowOf t p)) := by
  show (V m c main_v9 : S8192x1.Idx → EReal) (((cfg0.win 3).blk t).view.emb (ix2 p 0)) = _
  have he : (((cfg0.win 3).blk t).view.emb (ix2 p 0) : S8192x1.Idx) = ix2 (rowOf t p) 0 := by
    obtain ⟨e0, e1⟩ := idx_3 t
    funext a; apply Fin.ext
    match a with
    | ⟨0, _⟩ => show win0_3.index t (0 : Fin 2) * 1024 + 1 * p.val = t.val / 25 * 1024 + p.val; omega
    | ⟨1, _⟩ => show win0_3.index t (1 : Fin 2) * 1 + 1 * 0 = 0; omega
  exact (congrArg (V m c main_v9 : S8192x1.Idx → EReal) he).trans (V_v9_apply m c (rowOf t p))

end Cert.KernelIdeal.Blocks

end
-- ==== Proof.Invariant.lean ====
/-
  The running vectors point by point.  Grid point t is token block t / 25 and vocabulary tile t % 25.  After the body at
  point t, row p of the three carried vectors holds the online recurrence of token row (t / 25) * 1024 + p after
  t % 25 + 1 tiles: at a point that opens a token block the recurrence restarts from (-∞, 0, 0) and folds tile 0 in; at
  any other point the tile is folded into what the previous point (same token block, previous tile) left.  At the last
  tile of a token block the loss block's row p is the kernel's row loss.
-/
import proofs.«401228_j17970143166524_3_alg».proof.Proof.Gen.KernelIdeal.Frame
import proofs.«401228_j17970143166524_3_alg».proof.Proof.Spec
import proofs.«401228_j17970143166524_3_alg».proof.Proof.Pieces
import proofs.«401228_j17970143166524_3_alg».proof.Proof.Payload
import proofs.«401228_j17970143166524_3_alg».proof.Proof.Blocks

set_option maxRecDepth 16384

noncomputable section

open scoped BigOperators

namespace Cert.KernelIdeal.Invariant

open Cert.KernelIdeal Cert.KernelIdeal.Gen Idealize.ShloMosaic Idealize.ShloMosaic.TcCoe Idealize.SL.Sem
  Idealize.ShloMosaic.ValueIdx Cert.LinearCE Cert.KernelIdeal.Blocks

variable (m : (ℓ : Loc nD τ sig) → Buf (Elt Ideal) ℓ)

/-- The logits and the label of the token row that row `p` of point `t`'s token block is. -/
abbrev zrow (c : Dev nD) (t : Fin cfg0.N) (p : Fin 1024) : Fin 32000 → EReal := zOf (argX m c) (argW m c) (rowOf t p)
abbrev lab (c : Dev nD) (t : Fin cfg0.N) (p : Fin 1024) : BitVec 32 := tOf (argT m c) (rowOf t p)

/-- The tile of point `t` holds the row's logits at the tile's columns. -/
theorem tile_logits (c : Dev nD) (t : Fin cfg0.N) (p : Fin 1024) (cc : Fin 1280) :
    zrow m c t p (vcol (t.val % 25) cc) = ∑ k : Fin 2048, hblk m c t (ix2 p k) * wblk m c t (ix2 cc k) := by
  simp only [hblk_apply, wblk_apply]
  rfl

/-- The same with the tile named by the point's second grid coordinate. -/
theorem tile_logits' (c : Dev nD) (t : Fin cfg0.N) (p : Fin 1024) (cc : Fin 1280) :
    zrow m c t p (vcol ((grid0.coords t) 1).val cc) = ∑ k : Fin 2048, hblk m c t (ix2 p k) * wblk m c t (ix2 cc k) := by
  rw [coords1]; exact tile_logits m c t p cc

/-- Consecutive points of one token block see the same token rows. -/
theorem rowOf_succ (k : ℕ) (hk : k + 1 < cfg0.N) (h0 : ¬(k + 1) % 25 = 0) (p : Fin 1024) :
    rowOf ⟨k + 1, hk⟩ p = rowOf ⟨k, Nat.lt_of_succ_lt hk⟩ p := by
  apply Fin.ext
  show (k + 1) / 25 * 1024 + p.val = k / 25 * 1024 + p.val
  omega

/-- The point before, as the generated recursion names it. -/
theorem outs_prev (c : Dev nD) (k : ℕ) (hk : k + 1 < cfg0.N) :
    outsAt0 m c (k + 1 - 1) (Nat.lt_of_le_of_lt (Nat.sub_le _ _) hk) = outsAt0 m c k (Nat.lt_of_succ_lt hk) := rfl

/-- What the three carried vectors hold at row `p` after point `n`. -/
def Holds (c : Dev nD) (n : ℕ) (hn : n < cfg0.N) (p : Fin 1024) : Prop :=
  (outsAt0 m c n hn).2.1 (ix2 p 0) = (run (zrow m c ⟨n, hn⟩ p) (safeWord (lab m c ⟨n, hn⟩ p)) (n % 25 + 1)).1
  ∧ (outsAt0 m c n hn).2.2.1 (ix2 p 0) = (run (zrow m c ⟨n, hn⟩ p) (safeWord (lab m c ⟨n, hn⟩ p)) (n % 25 + 1)).2.1
  ∧ (outsAt0 m c n hn).2.2.2 (ix2 p 0) = (run (zrow m c ⟨n, hn⟩ p) (safeWord (lab m c ⟨n, hn⟩ p)) (n % 25 + 1)).2.2

/-- A point that opens a token block: the recurrence from (-∞, 0, 0) with tile 0 folded in. -/
theorem holds_open (c : Dev nD) (t : Fin cfg0.N) (h0 : t.val % 25 = 0) (p : Fin 1024) : Holds m c t.val t.isLt p := by
  have h1 : ¬t.val % 25 = 24 := by omega
  have hz := tile_logits m c t p
  have hz' := tile_logits' m c t p
  unfold Holds
  rw [outsAt0_A m c t h0 h1]
  dsimp only
  have e : t.val % 25 + 1 = 0 + 1 := by omega
  rw [e]
  refine ⟨?_, ?_, ?_⟩
  · refine (congrFun (Pieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))) (ix2 p 0)).trans ?_
    refine (Payload.newM_apply (hblk m c t) (wblk m c t) (k0_pay4 (F := Ideal)) p (zrow m c t p) 0 (fun cc => by rw [← h0]; exact hz cc)).trans ?_
    rw [Payload.pay4_apply]
    rfl
  · refine (congrFun (Pieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))) (ix2 p 0)).trans ?_
    refine (Payload.newL_apply (hblk m c t) (wblk m c t) (k0_pay4 (F := Ideal)) (k0_pay5 (F := Ideal)) p (zrow m c t p) 0 (fun cc => by rw [← h0]; exact hz cc)).trans ?_
    rw [Payload.pay4_apply, Payload.pay5_apply]
    rfl
  · refine (congrFun (Pieces.sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))) (ix2 p 0)).trans ?_
    refine (Payload.newT_apply (hblk m c t) (wblk m c t) (tblk m c t) (k0_pay6 (F := Ideal)) p (grid0.coords t) (zrow m c t p) (hz')).trans ?_
    rw [Payload.pay6_apply, tblk_apply, coords1, h0]
    rfl

/-- A point inside a token block (not its last tile): the tile folded into what the previous point left. -/
theorem holds_step_B (c : Dev nD) (k : ℕ) (hk : k + 1 < cfg0.N) (h0 : ¬(k + 1) % 25 = 0) (h1 : ¬(k + 1) % 25 = 24) (p : Fin 1024)
    (ih : Holds m c k (Nat.lt_of_succ_lt hk) p) : Holds m c (k + 1) hk p := by
  obtain ⟨ih0, ih1, ih2⟩ := ih
  have hz := tile_logits m c ⟨k + 1, hk⟩ p
  have hz' := tile_logits' m c ⟨k + 1, hk⟩ p
  have hrow : rowOf ⟨k + 1, hk⟩ p = rowOf ⟨k, Nat.lt_of_succ_lt hk⟩ p := rowOf_succ k hk h0 p
  have hzr : zrow m c ⟨k, Nat.lt_of_succ_lt hk⟩ p = zrow m c ⟨k + 1, hk⟩ p := by unfold zrow; rw [hrow]
  have hlb : lab m c ⟨k, Nat.lt_of_succ_lt hk⟩ p = lab m c ⟨k + 1, hk⟩ p := by unfold lab; rw [hrow]
  rw [hzr, hlb] at ih0 ih1 ih2
  have ek : k % 25 + 1 = (k + 1) % 25 := by omega
  rw [ek] at ih0 ih1 ih2
  unfold Holds
  rw [outsAt0_B m c ⟨k + 1, hk⟩ h0 h1]
  dsimp only
  rw [outs_prev m c k hk]
  show (_ = (step (zrow m c ⟨k + 1, hk⟩ p) (safeWord (lab m c ⟨k + 1, hk⟩ p)) ((k + 1) % 25)
        (run (zrow m c ⟨k + 1, hk⟩ p) (safeWord (lab m c ⟨k + 1, hk⟩ p)) ((k + 1) % 25))).1)
    ∧ (_ = (step (zrow m c ⟨k + 1, hk⟩ p) (safeWord (lab m c ⟨k + 1, hk⟩ p)) ((k + 1) % 25)
        (run (zrow m c ⟨k + 1, hk⟩ p) (safeWord (lab m c ⟨k + 1, hk⟩ p)) ((k + 1) % 25))).2.1)
    ∧ (_ = (step (zrow m c ⟨k + 1, hk⟩ p) (safeWord (lab m c ⟨k + 1, hk⟩ p)) ((k + 1) % 25)
        (run (zrow m c ⟨k + 1, hk⟩ p) (safeWord (lab m c ⟨k + 1, hk⟩ p)) ((k + 1) % 25))).2.2)
  refine ⟨?_, ?_, ?_⟩
  · refine (congrFun (Pieces.sout_B_0 (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) scM0_0 (Memref.isWhole_whole _) scM0_1 (Memref.isWhole_whole _) scM0_2 (Memref.isWhole_whole _) (iblk m c 0 ⟨k + 1, hk⟩) (iblk m c 1 ⟨k + 1, hk⟩) (iblk m c 2 ⟨k + 1, hk⟩) (iblk m c 3 ⟨k + 1, hk⟩)
      (outsAt0 m c k (Nat.lt_of_succ_lt hk)).2.1 (outsAt0 m c k (Nat.lt_of_succ_lt hk)).2.2.1 (outsAt0 m c k (Nat.lt_of_succ_lt hk)).2.2.2
      (fun h => h0 ((hcond0_0 ⟨k + 1, hk⟩).mp h)) (fun h => h1 ((hcond0_1 ⟨k + 1, hk⟩).mp h))) (ix2 p 0)).trans ?_
    refine (Payload.newM_apply (hblk m c ⟨k + 1, hk⟩) (wblk m c ⟨k + 1, hk⟩) (outsAt0 m c k (Nat.lt_of_succ_lt hk)).2.1 p
      (zrow m c ⟨k + 1, hk⟩ p) ((k + 1) % 25) hz).trans ?_
    rw [ih0]
    rfl
  · refine (congrFun (Pieces.sout_B_1 (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) scM0_0 (Memref.isWhole_whole _) scM0_1 (Memref.isWhole_whole _) scM0_2 (Memref.isWhole_whole _) (iblk m c 0 ⟨k + 1, hk⟩) (iblk m c 1 ⟨k + 1, hk⟩) (iblk m c 2 ⟨k + 1, hk⟩) (iblk m c 3 ⟨k + 1, hk⟩)
      (outsAt0 m c k (Nat.lt_of_succ_lt hk)).2.1 (outsAt0 m c k (Nat.lt_of_succ_lt hk)).2.2.1 (outsAt0 m c k (Nat.lt_of_succ_lt hk)).2.2.2
      (fun h => h0 ((hcond0_0 ⟨k + 1, hk⟩).mp h)) (fun h => h1 ((hcond0_1 ⟨k + 1, hk⟩).mp h))) (ix2 p 0)).trans ?_
    refine (Payload.newL_apply (hblk m c ⟨k + 1, hk⟩) (wblk m c ⟨k + 1, hk⟩) (outsAt0 m c k (Nat.lt_of_succ_lt hk)).2.1
      (outsAt0 m c k (Nat.lt_of_succ_lt hk)).2.2.1 p (zrow m c ⟨k + 1, hk⟩ p) ((k + 1) % 25) hz).trans ?_
    rw [ih0, ih1]
    rfl
  · refine (congrFun (Pieces.sout_B_2 (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) scM0_0 (Memref.isWhole_whole _) scM0_1 (Memref.isWhole_whole _) scM0_2 (Memref.isWhole_whole _) (iblk m c 0 ⟨k + 1, hk⟩) (iblk m c 1 ⟨k + 1, hk⟩) (iblk m c 2 ⟨k + 1, hk⟩) (iblk m c 3 ⟨k + 1, hk⟩)
      (outsAt0 m c k (Nat.lt_of_succ_lt hk)).2.1 (outsAt0 m c k (Nat.lt_of_succ_lt hk)).2.2.1 (outsAt0 m c k (Nat.lt_of_succ_lt hk)).2.2.2
      (fun h => h0 ((hcond0_0 ⟨k + 1, hk⟩).mp h)) (fun h => h1 ((hcond0_1 ⟨k + 1, hk⟩).mp h))) (ix2 p 0)).trans ?_
    refine (Payload.newT_apply (hblk m c ⟨k + 1, hk⟩) (wblk m c ⟨k + 1, hk⟩) (tblk m c ⟨k + 1, hk⟩)
      (outsAt0 m c k (Nat.lt_of_succ_lt hk)).2.2.2 p (grid0.coords ⟨k + 1, hk⟩) (zrow m c ⟨k + 1, hk⟩ p) hz').trans ?_
    rw [ih2, tblk_apply, coords1]
    rfl

/-- A point inside a token block (its last tile): the tile folded into what the previous point left. -/
theorem holds_step_C (c : Dev nD) (k : ℕ) (hk : k + 1 < cfg0.N) (h0 : ¬(k + 1) % 25 = 0) (h1 : (k + 1) % 25 = 24) (p : Fin 1024)
    (ih : Holds m c k (Nat.lt_of_succ_lt hk) p) : Holds m c (k + 1) hk p := by
  obtain ⟨ih0, ih1, ih2⟩ := ih
  have hz := tile_logits m c ⟨k + 1, hk⟩ p
  have hz' := tile_logits' m c ⟨k + 1, hk⟩ p
  have hrow : rowOf ⟨k + 1, hk⟩ p = rowOf ⟨k, Nat.lt_of_succ_lt hk⟩ p := rowOf_succ k hk h0 p
  have hzr : zrow m c ⟨k, Nat.lt_of_succ_lt hk⟩ p = zrow m c ⟨k + 1, hk⟩ p := by unfold zrow; rw [hrow]
  have hlb : lab m c ⟨k, Nat.lt_of_succ_lt hk⟩ p = lab m c ⟨k + 1, hk⟩ p := by unfold lab; rw [hrow]
  rw [hzr, hlb] at ih0 ih1 ih2
  have ek : k % 25 + 1 = (k + 1) % 25 := by omega
  rw [ek] at ih0 ih1 ih2
  unfold Holds
  rw [outsAt0_C m c ⟨k + 1, hk⟩ h0 h1]
  dsimp only
  rw [outs_prev m c k hk]
  show (_ = (step (zrow m c ⟨k + 1, hk⟩ p) (safeWord (lab m c ⟨k + 1, hk⟩ p)) ((k + 1) % 25)
        (run (zrow m c ⟨k + 1, hk⟩ p) (safeWord (lab m c ⟨k + 1, hk⟩ p)) ((k + 1) % 25))).1)
    ∧ (_ = (step (zrow m c ⟨k + 1, hk⟩ p) (safeWord (lab m c ⟨k + 1, hk⟩ p)) ((k + 1) % 25)
        (run (zrow m c ⟨k + 1, hk⟩ p) (safeWord (lab m c ⟨k + 1, hk⟩ p)) ((k + 1) % 25))).2.1)
    ∧ (_ = (step (zrow m c ⟨k + 1, hk⟩ p) (safeWord (lab m c ⟨k + 1, hk⟩ p)) ((k + 1) % 25)
        (run (zrow m c ⟨k + 1, hk⟩ p) (safeWord (lab m c ⟨k + 1, hk⟩ p)) ((k + 1) % 25))).2.2)
  refine ⟨?_, ?_, ?_⟩
  · refine (congrFun (Pieces.sout_C_0 (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) scM0_0 (Memref.isWhole_whole _) scM0_1 (Memref.isWhole_whole _) scM0_2 (Memref.isWhole_whole _) (iblk m c 0 ⟨k + 1, hk⟩) (iblk m c 1 ⟨k + 1, hk⟩) (iblk m c 2 ⟨k + 1, hk⟩) (iblk m c 3 ⟨k + 1, hk⟩)
      (outsAt0 m c k (Nat.lt_of_succ_lt hk)).2.1 (outsAt0 m c k (Nat.lt_of_succ_lt hk)).2.2.1 (outsAt0 m c k (Nat.lt_of_succ_lt hk)).2.2.2
      (fun h => h0 ((hcond0_0 ⟨k + 1, hk⟩).mp h)) ((hcond0_1 ⟨k + 1, hk⟩).mpr h1)) (ix2 p 0)).trans ?_
    refine (Payload.newM_apply (hblk m c ⟨k + 1, hk⟩) (wblk m c ⟨k + 1, hk⟩) (outsAt0 m c k (Nat.lt_of_succ_lt hk)).2.1 p
      (zrow m c ⟨k + 1, hk⟩ p) ((k + 1) % 25) hz).trans ?_
    rw [ih0]
    rfl
  · refine (congrFun (Pieces.sout_C_1 (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) scM0_0 (Memref.isWhole_whole _) scM0_1 (Memref.isWhole_whole _) scM0_2 (Memref.isWhole_whole _) (iblk m c 0 ⟨k + 1, hk⟩) (iblk m c 1 ⟨k + 1, hk⟩) (iblk m c 2 ⟨k + 1, hk⟩) (iblk m c 3 ⟨k + 1, hk⟩)
      (outsAt0 m c k (Nat.lt_of_succ_lt hk)).2.1 (outsAt0 m c k (Nat.lt_of_succ_lt hk)).2.2.1 (outsAt0 m c k (Nat.lt_of_succ_lt hk)).2.2.2
      (fun h => h0 ((hcond0_0 ⟨k + 1, hk⟩).mp h)) ((hcond0_1 ⟨k + 1, hk⟩).mpr h1)) (ix2 p 0)).trans ?_
    refine (Payload.newL_apply (hblk m c ⟨k + 1, hk⟩) (wblk m c ⟨k + 1, hk⟩) (outsAt0 m c k (Nat.lt_of_succ_lt hk)).2.1
      (outsAt0 m c k (Nat.lt_of_succ_lt hk)).2.2.1 p (zrow m c ⟨k + 1, hk⟩ p) ((k + 1) % 25) hz).trans ?_
    rw [ih0, ih1]
    rfl
  · refine (congrFun (Pieces.sout_C_2 (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) scM0_0 (Memref.isWhole_whole _) scM0_1 (Memref.isWhole_whole _) scM0_2 (Memref.isWhole_whole _) (iblk m c 0 ⟨k + 1, hk⟩) (iblk m c 1 ⟨k + 1, hk⟩) (iblk m c 2 ⟨k + 1, hk⟩) (iblk m c 3 ⟨k + 1, hk⟩)
      (outsAt0 m c k (Nat.lt_of_succ_lt hk)).2.1 (outsAt0 m c k (Nat.lt_of_succ_lt hk)).2.2.1 (outsAt0 m c k (Nat.lt_of_succ_lt hk)).2.2.2
      (fun h => h0 ((hcond0_0 ⟨k + 1, hk⟩).mp h)) ((hcond0_1 ⟨k + 1, hk⟩).mpr h1)) (ix2 p 0)).trans ?_
    refine (Payload.newT_apply (hblk m c ⟨k + 1, hk⟩) (wblk m c ⟨k + 1, hk⟩) (tblk m c ⟨k + 1, hk⟩)
      (outsAt0 m c k (Nat.lt_of_succ_lt hk)).2.2.2 p (grid0.coords ⟨k + 1, hk⟩) (zrow m c ⟨k + 1, hk⟩ p) hz').trans ?_
    rw [ih2, tblk_apply, coords1]
    rfl

/-- Every point: the three carried vectors hold the recurrence after the point's tile. -/
theorem holds_all (c : Dev nD) (p : Fin 1024) : ∀ (n : ℕ) (hn : n < cfg0.N), Holds m c n hn p := by
  intro n
  induction n with
  | zero => intro hn; exact holds_open m c ⟨0, hn⟩ (Nat.zero_mod _) p
  | succ k ih =>
    intro hk
    by_cases h0 : (k + 1) % 25 = 0
    · exact holds_open m c ⟨k + 1, hk⟩ h0 p
    · by_cases h1 : (k + 1) % 25 = 24
      · exact holds_step_C m c k hk h0 h1 p (ih (Nat.lt_of_succ_lt hk))
      · exact holds_step_B m c k hk h0 h1 p (ih (Nat.lt_of_succ_lt hk))

end Cert.KernelIdeal.Invariant

end
-- ==== Proof.Final.lean ====
/-
  The loss array after the region.  The loss block is written back only at the last vocabulary tile of a token block
  (point t with t % 25 = 24), where its row p holds the kernel's loss of token row (t / 25) * 1024 + p: the three carried
  vectors then hold the recurrence after all 25 tiles.  Token block b = r / 1024 of row r is written back at point
  b * 25 + 24, so the eight write-backs cover the array and it ends holding the row losses.
-/
import proofs.«401228_j17970143166524_3_alg».proof.Proof.Gen.KernelIdeal.Frame
import proofs.«401228_j17970143166524_3_alg».proof.Proof.Spec
import proofs.«401228_j17970143166524_3_alg».proof.Proof.Pieces
import proofs.«401228_j17970143166524_3_alg».proof.Proof.Payload
import proofs.«401228_j17970143166524_3_alg».proof.Proof.Blocks
import proofs.«401228_j17970143166524_3_alg».proof.Proof.Invariant
import Idealize.ShloMosaic.Lib.Pipeline.Value

set_option maxRecDepth 16384

noncomputable section

open scoped BigOperators

namespace Cert.KernelIdeal.Final

open Cert.KernelIdeal Cert.KernelIdeal.Gen Idealize.ShloMosaic Idealize.ShloMosaic.TcCoe Idealize.SL.Sem
  Idealize.ShloMosaic.ValueIdx Cert.LinearCE Cert.KernelIdeal.Blocks Cert.KernelIdeal.Invariant

variable (m : (ℓ : Loc nD τ sig) → Buf (Elt Ideal) ℓ)

/-- Row `p` of the loss block after a point that closes a token block: the kernel's loss of that token row. -/
theorem loss_row (c : Dev nD) (t : Fin cfg0.N) (h1 : t.val % 25 = 24) (p : Fin 1024) :
    (outsAt0 m c t.val t.isLt).1 (ix2 p 0) = lossK (zrow m c t p) (lab m c t p) := by
  have h0 : ¬t.val % 25 = 0 := by omega
  obtain ⟨e0, e1, e2⟩ := holds_all m c p t.val t.isLt
  have e25 : t.val % 25 + 1 = 25 := by omega
  rw [e25] at e0 e1 e2
  have s0 : (outsAt0 m c t.val t.isLt).2.1 (ix2 p 0)
      = Pieces.newM (hblk m c t) (wblk m c t) (outsAt0 m c (t.val - 1) (Nat.lt_of_le_of_lt (Nat.sub_le _ _) t.isLt)).2.1 (ix2 p 0) := by
    rw [outsAt0_C m c t h0 h1]; dsimp only
    exact congrFun (Pieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ (fun h => h0 ((hcond0_0 t).mp h)) ((hcond0_1 t).mpr h1)) (ix2 p 0)
  have s1 : (outsAt0 m c t.val t.isLt).2.2.1 (ix2 p 0)
      = Pieces.newL (hblk m c t) (wblk m c t) (outsAt0 m c (t.val - 1) (Nat.lt_of_le_of_lt (Nat.sub_le _ _) t.isLt)).2.1
          (outsAt0 m c (t.val - 1) (Nat.lt_of_le_of_lt (Nat.sub_le _ _) t.isLt)).2.2.1 (ix2 p 0) := by
    rw [outsAt0_C m c t h0 h1]; dsimp only
    exact congrFun (Pieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ (fun h => h0 ((hcond0_0 t).mp h)) ((hcond0_1 t).mpr h1)) (ix2 p 0)
  have s2 : (outsAt0 m c t.val t.isLt).2.2.2 (ix2 p 0)
      = Pieces.newT (grid0.coords t) (hblk m c t) (wblk m c t) (tblk m c t) (outsAt0 m c (t.val - 1) (Nat.lt_of_le_of_lt (Nat.sub_le _ _) t.isLt)).2.2.2 (ix2 p 0) := by
    rw [outsAt0_C m c t h0 h1]; dsimp only
    exact congrFun (Pieces.sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ (fun h => h0 ((hcond0_0 t).mp h)) ((hcond0_1 t).mpr h1)) (ix2 p 0)
  rw [outsAt0_C m c t h0 h1]; dsimp only
  refine (congrFun (Pieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2
    (fun h => h0 ((hcond0_0 t).mp h)) ((hcond0_1 t).mpr h1)) (ix2 p 0)).trans ?_
  refine (Payload.pay3_apply (mblk m c t) _ _ _ p).trans ?_
  rw [← s0, ← s1, ← s2, e0, e1, e2, mblk_apply]
  rfl

/-- The whole loss array: row `r` at the kernel's loss of token row `r`. -/
def lossAll (c : Dev nD) : S8192x1.Idx → EReal := fun i =>
  lossK (zOf (argX m c) (argW m c) ⟨(i 0).val, idx2_lt0 i⟩) (tOf (argT m c) ⟨(i 0).val, idx2_lt0 i⟩)

/-- The loss window's block index at a point, decided over the grid: token block t / 25, column block 0. -/
theorem idx_facts4 : ∀ t : Fin cfg0.N, win0_4.index t (0 : Fin 2) = t.val / 25 ∧ win0_4.index t (1 : Fin 2) = 0 :=
  (by decide +kernel : ∀ t : Fin grid0.N, win0_4.index t (0 : Fin 2) = t.val / 25 ∧ win0_4.index t (1 : Fin 2) = 0)

/-- What a write-back point writes is its block of the whole loss array. -/
theorem flushed_eq (c : Dev nD) (t : Fin cfg0.N) (hf : (cfg0.win 4).flush t = true) :
    (dats m 0 c).flushed 4 t = ((cfg0.win 4).blk t).view.read (Elt Ideal) (lossAll m c) := by
  have h24 : t.val % 25 = 24 := (flush0_4 t).mp hf
  obtain ⟨i0, i1⟩ := idx_facts4 t
  show (cfg0.win 4).cut (grid0.coords t) ((dats m 0 c).after 4 t) = _
  rw [after0_4]
  funext j
  have hj1 : (j 1).val = 0 := by have h : (j 1).val < 1 := (j 1).isLt; omega
  have hj : (j : S1024x1.Idx) = ix2 (⟨(j 0).val, (j 0).isLt⟩ : Fin 1024) (0 : Fin 1) := by
    funext a; apply Fin.ext
    match a with
    | ⟨0, _⟩ => rfl
    | ⟨1, _⟩ => exact hj1
  show (outsAt0 m c t.val t.isLt).1 j = lossAll m c (((cfg0.win 4).blk t).view.emb j)
  rw [hj, loss_row m c t h24]
  unfold lossAll zrow lab
  have hr : rowOf t ⟨(j 0).val, (j 0).isLt⟩
      = ⟨((((cfg0.win 4).blk t).view.emb (ix2 (⟨(j 0).val, (j 0).isLt⟩ : Fin 1024) (0 : Fin 1))) 0).val, idx2_lt0 _⟩ := by
    apply Fin.ext
    show t.val / 25 * 1024 + (j 0).val = win0_4.index t (0 : Fin 2) * 1024 + 1 * (j 0).val
    rw [i0]; omega
  rw [hr]

/-- An index of the loss array is in point `t`'s block iff each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v10).slice (win0_4.rect t)).set ↔ _
  rw [View.set_slice_whole, Rect.mem_set_unit]
  exact Iff.rfl

/-- The loss array after the region holds every row's loss. -/
theorem final (c : Dev nD) : (dats m 0 c).arrAt 4 cfg0.N = lossAll m c :=
  (dats m 0 c).arrAt_eq_of_cover 4 (lossAll m c) (flushed_eq m c) fun i => by
    have hN : cfg0.N = 200 := N_0
    have hi0 : (i 0).val < 8192 := (i 0).isLt
    have hi1 : (i 1).val < 1 := (i 1).isLt
    refine ⟨⟨(i 0).val / 1024 * 25 + 24, by omega⟩, (flush0_4 _).mpr (by show ((i 0).val / 1024 * 25 + 24) % 25 = 24; omega), ?_⟩
    rw [mem_blk4]
    obtain ⟨i0, i1⟩ := idx_facts4 ⟨(i 0).val / 1024 * 25 + 24, by omega⟩
    intro a
    match a with
    | ⟨0, _⟩ =>
      show win0_4.index _ (0 : Fin 2) * 1024 ≤ (i 0).val ∧ (i 0).val < win0_4.index _ (0 : Fin 2) * 1024 + 1024
      rw [i0]; show ((i 0).val / 1024 * 25 + 24) / 25 * 1024 ≤ (i 0).val ∧ (i 0).val < ((i 0).val / 1024 * 25 + 24) / 25 * 1024 + 1024
      omega
    | ⟨1, _⟩ =>
      show win0_4.index _ (1 : Fin 2) * 1 ≤ (i 1).val ∧ (i 1).val < win0_4.index _ (1 : Fin 2) * 1 + 1
      rw [i1]; omega

/-- Row `r` of the loss array after the region. -/
theorem final_row (c : Dev nD) (r : Fin 8192) :
    ((dats (F := Ideal) m 0 c).arrAt 4 cfg0.N : S8192x1.Idx → EReal) (ix2 r 0)
      = lossK (zOf (argX m c) (argW m c) r) (tOf (argT m c) r) := by
  rw [final m c]
  rfl

end Cert.KernelIdeal.Final

end
-- ==== Proof.KernelRun.lean ====
/-
  From the loss array to the result.  After the region the program sums the loss array over its 8192 rows, sums the
  mask (1 on a row whose label is not the ignored one) over the rows, and divides.  With the loss array's row r at the
  kernel's row loss of row r, the result is the specification's quotient of the two sums; the three argument arrays are
  not written by anything.
-/
import proofs.«401228_j17970143166524_3_alg».proof.Proof.Gen.KernelIdeal.Frame
import proofs.«401228_j17970143166524_3_alg».proof.Proof.Spec
import proofs.«401228_j17970143166524_3_alg».proof.Proof.Blocks
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

open scoped BigOperators

namespace Cert.KernelIdeal.KernelRun

open Cert.KernelIdeal Cert.KernelIdeal.Gen Idealize.ShloMosaic Idealize.ShloMosaic.TcCoe Idealize.SL.Sem
  Idealize.ShloMosaic.ValueIdx Cert.LinearCE Cert.KernelIdeal.Blocks

variable (m : (ℓ : Loc nD τ sig) → Buf (Elt Ideal) ℓ) (ρ : Dev nD → PrngReg)

/-- The loss array after the region, at its literal type. -/
abbrev lossArr (c : Dev nD) : S8192x1.Idx → EReal := (dats (F := Ideal) m 0 c).arrAt 4 cfg0.N

/-- The mask bit vector as the region finds it, at its literal type. -/
abbrev maskBits (c : Dev nD) : S8192.Idx → BitVec 1 := V m c main_v5

/-- The mask bits the host lines before the region compute: row by row, whether the label differs from the ignored word. -/
theorem maskBits_eq (c : Dev nD) :
    maskBits m c
      = cmpi .ne (shapeCast S8192 (argT m c) shapeCasts_S4x2048_S8192)
          (broadcastInDim S8192 ![] bcast_S_S8192 (constantI S_ 32 4294967196#32)) := by
  dsimp only [maskBits, Gen.V, Gen.V0]
  simp only [Gen.hostOps0, Gen.hostOps0_1, Gen.hostOps0_2, List.flatten_cons, List.flatten_nil, List.append_nil,
    List.cons_append, List.nil_append]
  after_results
  rfl

/-- The sum of the loss array over its index set is the sum of the rows' losses. -/
theorem loss_sum
    (hfinal : ∀ (c : Dev nD) (r : Fin 8192),
      lossArr m c (ix2 r 0) = lossK (zOf (argX m c) (argW m c) r) (tOf (argT m c) r)) (c : Dev nD) :
    ∑ j : S8192x1.Idx, lossArr m c j = ∑ r : Fin 8192, lossK (zOf (argX m c) (argW m c) r) (tOf (argT m c) r) := by
  rw [sum_idx2]
  refine Finset.sum_congr rfl fun r _ => ?_
  rw [Fin.sum_univ_one]
  exact hfinal c r

/-- The reshaped label array at row r is the label of (batch, position) of r. -/
theorem label_reshape (T : S4x2048.Idx → BitVec 32) (r : Fin 8192) :
    shapeCast S8192 T shapeCasts_S4x2048_S8192 (ix1 r) = tOf T r := by
  unfold tOf
  refine shapeCast_apply T _ _ _ ?_
  rw [Shape.rowMajor_val_two, Shape.rowMajor_val_one]
  show (rowB r).val * 2048 + (rowS r).val = r.val
  unfold rowB rowS
  show r.val / 2048 * 2048 + r.val % 2048 = r.val
  omega

/-- One row's mask bit as a real: 0 on an ignored row, 1 elsewhere. -/
theorem mask_term (c : Dev nD) (r : Fin 8192) :
    (uitofp (F := Ideal) .f32 (maskBits m c) : S8192.Idx → EReal) (ix1 r) = maskf (tOf (argT m c) r) := by
  rw [maskBits_eq]
  show (((IntOp.cmpi .ne (shapeCast S8192 (argT m c) shapeCasts_S4x2048_S8192 (ix1 r))
      (broadcastInDim S8192 ![] bcast_S_S8192 (constantI S_ 32 4294967196#32) (ix1 r))).toNat : ℝ) : EReal) = _
  rw [label_reshape, broadcastInDim_scalar_apply]
  show (((IntOp.cmpi .ne (tOf (argT m c) r) ignoreWord).toNat : ℝ) : EReal) = _
  unfold maskf IntOp.cmpi
  by_cases h : tOf (argT m c) r = ignoreWord
  · rw [if_pos h, h]; simp
  · rw [if_neg h]
    have : (tOf (argT m c) r != ignoreWord) = true := by simpa using h
    simp [this]

/-- The sum of the mask over the rows. -/
theorem mask_sum (c : Dev nD) :
    ∑ j : S8192.Idx, (uitofp (F := Ideal) .f32 (maskBits m c) : S8192.Idx → EReal) j
      = ∑ r : Fin 8192, maskf (tOf (argT m c) r) := by
  refine Fintype.sum_equiv ⟨fun j => j 0, ix1, fun j => (eq_ix1 j).symm, fun _ => rfl⟩ _ _ fun j => ?_
  rw [eq_ix1 j]
  exact mask_term m c (j 0)

/-- What the host lines after the region leave in the result buffer. -/
theorem result_eq
    (hfinal : ∀ (c : Dev nD) (r : Fin 8192),
      lossArr m c (ix2 r 0) = lossK (zOf (argX m c) (argW m c) r) (tOf (argT m c) r)) (c : Dev nD) :
    Pipeline.afterTail₀ cfgs (dats (F := Ideal) m) 0 (V0 m) [hostOps1] c main_v14
      = (fun _ => specK (argX m c) (argT m c) (argW m c)) := by
  unfold Pipeline.afterTail₀
  show StableHlo.after hostOps1 _ (Proc.devRef .tc main_v14) = _
  after_results
  have h10 : Pipeline.withArrays (cfgs 0).spec c (V0 m c) (fun w => (dats m 0 c).arrAt w (cfgs 0).N)
      (Proc.devRef .tc main_v10) = lossArr m c :=
    Pipeline.withArrays_arr spec0 launch0.win.arr_inj c _ _ 4
  have h5 : Pipeline.withArrays (cfgs 0).spec c (V0 m c) (fun w => (dats m 0 c).arrAt w (cfgs 0).N)
      (Proc.devRef .tc main_v5) = maskBits m c :=
    Pipeline.withArrays_of_ne _ c (V0 m c) _ main_v5 (by decide)
  rw [h10, h5]
  funext i
  rw [hostDivf_apply, hostReduceAdd_apply, hostReduceAdd_apply,
    Ideal.hostReduceAdd_total _ (fun b => b.elim0), Ideal.hostReduceAdd_total _ (fun b => b.elim0),
    constant_apply, Ideal.ofBits_zero_f32, zero_add, zero_add, loss_sum m hfinal c, mask_sum m c]
  rfl

theorem run_spec
    (hfinal : ∀ (c : Dev nD) (r : Fin 8192),
      lossArr m c (ix2 r 0) = lossK (zOf (argX m c) (argW m c) r) (tOf (argT m c) r)) :
    θ_run (defs (F := Ideal)) (onTc (τ := τ) (main (F := Ideal))) ⟨m, fun _ => 0, ρ⟩ (fun r => ∀ c : Dev nD,
      r.2.mem ((c.tc : Thread nD τ).loc main_v14) = (fun _ => specK (argX m c) (argT m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans (result_eq m hfinal c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefRun.lean ====
/-
  The reference program's run, read at its result.  Every weakly fair execution of its 59 host operations ends with the
  result buffer at the last of the operations' stages — the quotient of the summed row losses by the count of rows that
  are not ignored, as a function of the three arguments — and with the arguments unchanged.

  The contents after the operations are a fold of the operations' results over the launch contents.  The list of operations
  is cut into eight consecutive stretches; each stretch, started from any contents in which the buffers it reads hold their
  stages, leaves every buffer read later at its stage; the fold over the whole list is the folds over the stretches in a row.
-/
import proofs.«401228_j17970143166524_3_alg».proof.Proof.RefOps
import proofs.«401228_j17970143166524_3_alg».proof.Proof.RefRead
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-! ### The program cut into eight consecutive stretches -/

/-- The count of rows not ignored: the mask `main_v1` and its integer sum `main_v3`. -/
abbrev c1 : List (HloOp τ sig (Elt F)) :=
  [ nullary main_c (constantI S_ 32 4294967196#32),
    unary main_c main_v0 (broadcastInDim S4x2048 ![] bcast_S_S4x2048 : (⟨S_, .i32⟩ : BufTy).Contents (Elt F) → (⟨S4x2048, .i32⟩ : BufTy).Contents (Elt F)),
    binary main_arg1 main_v0 main_v1 (cmpi .ne : (⟨S4x2048, .i32⟩ : BufTy).Contents (Elt F) → (⟨S4x2048, .i32⟩ : BufTy).Contents (Elt F) → (⟨S4x2048, .i1⟩ : BufTy).Contents (Elt F)),
    unary main_v1 main_v2 ((extui 32 · natLt_1_32) : (⟨S4x2048, .i1⟩ : BufTy).Contents (Elt F) → (⟨S4x2048, .i32⟩ : BufTy).Contents (Elt F)),
    nullary main_c_0 (constantI S_ 32 0#32),
    binary main_v2 main_c_0 main_v3 ((fun x v => Host.reduce IntOp.addi x v reducesTo_S4x2048_S_d0_1 h_S_) : (⟨S4x2048, .i32⟩ : BufTy).Contents (Elt F) → (⟨S_, .i32⟩ : BufTy).Contents (Elt F) → (⟨S_, .i32⟩ : BufTy).Contents (Elt F)) ]

/-- The logits `main_v4`, their row maxima, and the shifted logits `main_call0_v5`. -/
abbrev c2 : List (HloOp τ sig (Elt F)) :=
  [ binary main_arg0 main_arg2 main_v4 ((fun l r => Host.dotGeneral dot_S4x2048x2048_S32000x2048_S4x2048x32000_2_1_01_0_n_n none l r) : (⟨S4x2048x2048, .f32⟩ : BufTy).Contents (Elt F) → (⟨S32000x2048, .f32⟩ : BufTy).Contents (Elt F) → (⟨S4x2048x32000, .f32⟩ : BufTy).Contents (Elt F)),
    TRef.nullary (TRef.of (T := ⟨S_, .f32⟩) main_call0_cst) (constant S_ .f32 0xFF800000#32),
    TRef.binary (TRef.of (T := ⟨S4x2048x32000, .f32⟩) main_v4) (TRef.of (T := ⟨S_, .f32⟩) main_call0_cst) (TRef.of (T := ⟨S4x2048, .f32⟩) main_call0_v0) (fun x v => Host.reduce FloatOps.maximumf x v reducesTo_S4x2048x32000_S4x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S4x2048, .f32⟩) main_call0_v1) (broadcastInDim S4x2048 ![] bcast_S_S4x2048),
    TRef.binary (TRef.of (T := ⟨S4x2048, .f32⟩) main_call0_v1) (TRef.of (T := ⟨S4x2048, .f32⟩) main_call0_v0) (TRef.of (T := ⟨S4x2048, .f32⟩) main_call0_v2) maximumf,
    TRef.unary (TRef.of (T := ⟨S4x2048, .f32⟩) main_call0_v2) (TRef.of (T := ⟨S4x2048x1, .f32⟩) main_call0_v3) (broadcastInDim S4x2048x1 ![0, 1] bcast_S4x2048_S4x2048x1_0_1),
    TRef.unary (TRef.of (T := ⟨S4x2048x1, .f32⟩) main_call0_v3) (TRef.of (T := ⟨S4x2048x32000, .f32⟩) main_call0_v4) (broadcastInDim S4x2048x32000 ![0, 1, 2] bcast_S4x2048x1_S4x2048x32000_0_1_2),
    TRef.binary (TRef.of (T := ⟨S4x2048x32000, .f32⟩) main_v4) (TRef.of (T := ⟨S4x2048x32000, .f32⟩) main_call0_v4) (TRef.of (T := ⟨S4x2048x32000, .f32⟩) main_call0_v5) subf ]

/-- The exponentials' row sums, their logarithms, and the log-probabilities `main_v5`. -/
abbrev c3 : List (HloOp τ sig (Elt F)) :=
  [ TRef.unary (TRef.of (T := ⟨S4x2048x32000, .f32⟩) main_call0_v5) (TRef.of (T := ⟨S4x2048x32000, .f32⟩) main_call0_v6) Host.exp,
    TRef.nullary (TRef.of (T := ⟨S_, .f32⟩) main_call0_cst_1) (constant S_ .f32 0x00000000#32),
    TRef.binary (TRef.of (T := ⟨S4x2048x32000, .f32⟩) main_call0_v6) (TRef.of (T := ⟨S_, .f32⟩) main_call0_cst_1) (TRef.of (T := ⟨S4x2048, .f32⟩) main_call0_v7) (fun x v => Host.reduceAdd x v reducesTo_S4x2048x32000_S4x2048_d2 h_S_),
    TRef.unary (TRef.of (T := ⟨S4x2048, .f32⟩) main_call0_v7) (TRef.of (T := ⟨S4x2048x1, .f32⟩) main_call0_v8) (broadcastInDim S4x2048x1 ![0, 1] bcast_S4x2048_S4x2048x1_0_1),
    TRef.unary (TRef.of (T := ⟨S4x2048x1, .f32⟩) main_call0_v8) (TRef.of (T := ⟨S4x2048x1, .f32⟩) main_call0_v9) Host.log,
    TRef.unary (TRef.of (T := ⟨S4x2048x1, .f32⟩) main_call0_v9) (TRef.of (T := ⟨S4x2048x32000, .f32⟩) main_call0_v10) (broadcastInDim S4x2048x32000 ![0, 1, 2] bcast_S4x2048x1_S4x2048x32000_0_1_2),
    TRef.binary (TRef.of (T := ⟨S4x2048x32000, .f32⟩) main_call0_v5) (TRef.of (T := ⟨S4x2048x32000, .f32⟩) main_call0_v10) (TRef.of (T := ⟨S4x2048x32000, .f32⟩) main_v5) subf ]

/-- The targets with the ignored ones set to zero, `main_v6`, broadcast to `main_v7`. -/
abbrev c4 : List (HloOp τ sig (Elt F)) :=
  [ nullary main_c_1 (constantI S_ 32 0#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S4x2048, .i32⟩) main_call1_v1) (broadcastInDim S4x2048 ![] bcast_S_S4x2048),
    TRef.ternary (TRef.of (T := ⟨S4x2048, .i1⟩) main_v1) (TRef.of (T := ⟨S4x2048, .i32⟩) main_arg1) (TRef.of (T := ⟨S4x2048, .i32⟩) main_call1_v1) (TRef.of (T := ⟨S4x2048, .i32⟩) main_v6) select,
    unary main_v6 main_v7 (broadcastInDim S4x2048x1 ![0, 1] bcast_S4x2048_S4x2048x1_0_1 : (⟨S4x2048, .i32⟩ : BufTy).Contents (Elt F) → (⟨S4x2048x1, .i32⟩ : BufTy).Contents (Elt F)) ]

/-- The gather's indices: negative targets wrapped, reshaped to `main_call2_v5`. -/
abbrev c5 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S4x2048x1, .i32⟩) main_call2_v0) (broadcastInDim S4x2048x1 ![] bcast_S_S4x2048x1),
    TRef.binary (TRef.of (T := ⟨S4x2048x1, .i32⟩) main_v7) (TRef.of (T := ⟨S4x2048x1, .i32⟩) main_call2_v0) (TRef.of (T := ⟨S4x2048x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S4x2048x1, .i32⟩) main_call2_v2) (broadcastInDim S4x2048x1 ![] bcast_S_S4x2048x1),
    TRef.binary (TRef.of (T := ⟨S4x2048x1, .i32⟩) main_v7) (TRef.of (T := ⟨S4x2048x1, .i32⟩) main_call2_v2) (TRef.of (T := ⟨S4x2048x1, .i32⟩) main_call2_v3) addi,
    TRef.ternary (TRef.of (T := ⟨S4x2048x1, .i1⟩) main_call2_v1) (TRef.of (T := ⟨S4x2048x1, .i32⟩) main_call2_v3) (TRef.of (T := ⟨S4x2048x1, .i32⟩) main_v7) (TRef.of (T := ⟨S4x2048x1, .i32⟩) main_call2_v4) select,
    TRef.reshape (TRef.of (T := ⟨S4x2048x1, .i32⟩) main_call2_v4) (TRef.of (T := ⟨S4x2048x1x1, .i32⟩) main_call2_v5) rfl shapeCasts_S4x2048x1_S4x2048x1x1 ]

/-- The gather's bounds check `main_call2_v12`. -/
abbrev c6 : List (HloOp τ sig (Elt F)) :=
  [ TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S4x2048x1x1, .i32⟩) main_call2_v6) (broadcastInDim S4x2048x1x1 ![] bcast_S_S4x2048x1x1),
    TRef.binary (TRef.of (T := ⟨S4x2048x1x1, .i32⟩) main_call2_v5) (TRef.of (T := ⟨S4x2048x1x1, .i32⟩) main_call2_v6) (TRef.of (T := ⟨S4x2048x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4x2048x1x1, .i32⟩) main_call2_v9) (broadcastInDim S4x2048x1x1 ![0, 1, 2, 3] bcast_S1x1x1x1_S4x2048x1x1_0_1_2_3),
    TRef.binary (TRef.of (T := ⟨S4x2048x1x1, .i32⟩) main_call2_v5) (TRef.of (T := ⟨S4x2048x1x1, .i32⟩) main_call2_v9) (TRef.of (T := ⟨S4x2048x1x1, .i1⟩) main_call2_v10) (cmpi .sle),
    TRef.binary (TRef.of (T := ⟨S4x2048x1x1, .i1⟩) main_call2_v7) (TRef.of (T := ⟨S4x2048x1x1, .i1⟩) main_call2_v10) (TRef.of (T := ⟨S4x2048x1x1, .i1⟩) main_call2_v11) andi,
    TRef.nullary (TRef.of (T := ⟨S_, .i1⟩) main_call2_c_3) (constantI S_ 1 1#1),
    TRef.binary (TRef.of (T := ⟨S4x2048x1x1, .i1⟩) main_call2_v11) (TRef.of (T := ⟨S_, .i1⟩) main_call2_c_3) (TRef.of (T := ⟨S4x2048x1, .i1⟩) main_call2_v12) (fun x v => Host.reduce IntOp.andi x v reducesTo_S4x2048x1x1_S4x2048x1_d3 h_S_) ]

/-- The gathered log-probabilities, not-a-number where out of bounds: `main_v8`. -/
abbrev c7 : List (HloOp τ sig (Elt F)) :=
  [ TRef.binary (TRef.of (T := ⟨S4x2048x32000, .f32⟩) main_v5) (TRef.of (T := ⟨S4x2048x1x1, .i32⟩) main_call2_v5) (TRef.of (T := ⟨S4x2048x1, .f32⟩) main_call2_v13) (fun x i => Host.gather gather_S4x2048x32000_S4x2048x1x1_S4x2048x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S4x2048x1, .f32⟩) main_call2_v14) (broadcastInDim S4x2048x1 ![] bcast_S_S4x2048x1),
    TRef.ternary (TRef.of (T := ⟨S4x2048x1, .i1⟩) main_call2_v12) (TRef.of (T := ⟨S4x2048x1, .f32⟩) main_call2_v13) (TRef.of (T := ⟨S4x2048x1, .f32⟩) main_call2_v14) (TRef.of (T := ⟨S4x2048x1, .f32⟩) main_v8) select ]

/-- The negated, masked row losses, their sum, and the quotient `main_v14`. -/
abbrev c8 : List (HloOp τ sig (Elt F)) :=
  [ reshape main_v8 main_v9 rfl shapeCasts_S4x2048x1_S4x2048,
    unary main_v9 main_v10 (Host.negf : (⟨S4x2048, .f32⟩ : BufTy).Contents (Elt F) → (⟨S4x2048, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S4x2048, .f32⟩) main_call3_v1) (broadcastInDim S4x2048 ![] bcast_S_S4x2048),
    TRef.ternary (TRef.of (T := ⟨S4x2048, .i1⟩) main_v1) (TRef.of (T := ⟨S4x2048, .f32⟩) main_v10) (TRef.of (T := ⟨S4x2048, .f32⟩) main_call3_v1) (TRef.of (T := ⟨S4x2048, .f32⟩) main_v11) select,
    nullary main_cst_2 (constant S_ .f32 0x00000000#32),
    binary main_v11 main_cst_2 main_v12 ((fun x v => Host.reduceAdd x v reducesTo_S4x2048_S_d0_1 h_S_) : (⟨S4x2048, .f32⟩ : BufTy).Contents (Elt F) → (⟨S_, .f32⟩ : BufTy).Contents (Elt F) → (⟨S_, .f32⟩ : BufTy).Contents (Elt F)),
    unary main_v3 main_v13 (sitofp .f32 : (⟨S_, .i32⟩ : BufTy).Contents (Elt F) → (⟨S_, .f32⟩ : BufTy).Contents (Elt F)),
    binary main_v12 main_v13 main_v14 (Host.divf : (⟨S_, .f32⟩ : BufTy).Contents (Elt F) → (⟨S_, .f32⟩ : BufTy).Contents (Elt F) → (⟨S_, .f32⟩ : BufTy).Contents (Elt F)) ]

set_option maxRecDepth 8192 in
/-- The program is its stretches in a row. -/
theorem ops_eq : (ops : List (HloOp τ sig (Elt F)))
    = c1 ++ (c2 ++ (c3 ++ (c4 ++ (c5 ++ (c6 ++ (c7 ++ c8)))))) := rfl

/-! ### Each stretch, from any contents in which the buffers it reads hold their stages

A stretch's lemma takes the contents `V` before it, with the buffers still to be read at their stages of the three
arguments `x0`, `x1`, `x2`, and gives every buffer read after it at its stage: those the stretch writes by unfolding
the stretch's own operations, the others because the stretch does not write them. -/

set_option maxRecDepth 8192 in
theorem step1 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_arg0 : V (Proc.devRef .tc main_arg0) = x0)
    (h_arg1 : V (Proc.devRef .tc main_arg1) = x1)
    (h_arg2 : V (Proc.devRef .tc main_arg2) = x2)
    :
    after (c1 (F := F)) V (Proc.devRef .tc main_arg0) = x0
    ∧ after (c1 (F := F)) V (Proc.devRef .tc main_arg1) = x1
    ∧ after (c1 (F := F)) V (Proc.devRef .tc main_arg2) = x2
    ∧ after (c1 (F := F)) V (Proc.devRef .tc main_v1) = ReadP.val_main_v1 (F := F) x1
    ∧ after (c1 (F := F)) V (Proc.devRef .tc main_v3) = ReadP.val_main_v3 (F := F) x1 := by
  refine ⟨?_, ?_, ?_, ?_, ?_⟩
  · after_results_simp
    exact h_arg0
  · after_results_simp
    exact h_arg1
  · after_results_simp
    exact h_arg2
  · after_results_simp
    try simp only [ofBuf_toBuf]
    (try rw [h_arg0]); (try rw [h_arg1]); (try rw [h_arg2])
    try simp only [TRef.ofBuf, TRef.toBuf, cast_eq]
    rfl
  · after_results_simp
    try simp only [ofBuf_toBuf]
    (try rw [h_arg0]); (try rw [h_arg1]); (try rw [h_arg2])
    try simp only [TRef.ofBuf, TRef.toBuf, cast_eq]
    rfl

set_option maxRecDepth 8192 in
theorem step2 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = ReadP.val_main_v1 (F := F) x1)
    (h_v3 : V (Proc.devRef .tc main_v3) = ReadP.val_main_v3 (F := F) x1)
    :
    after (c2 (F := F)) V (Proc.devRef .tc main_arg1) = x1
    ∧ after (c2 (F := F)) V (Proc.devRef .tc main_v1) = ReadP.val_main_v1 (F := F) x1
    ∧ after (c2 (F := F)) V (Proc.devRef .tc main_v3) = ReadP.val_main_v3 (F := F) x1
    ∧ after (c2 (F := F)) V (Proc.devRef .tc main_call0_v5) = ReadP.val_main_call0_v5 (F := F) x0 x2 := by
  refine ⟨?_, ?_, ?_, ?_⟩
  · after_results_simp
    exact h_arg1
  · after_results_simp
    exact h_v1
  · after_results_simp
    exact h_v3
  · after_results_simp
    try simp only [ofBuf_toBuf]
    (try rw [h_arg0]); (try rw [h_arg1]); (try rw [h_arg2]); (try rw [h_v1]); (try rw [h_v3])
    try simp only [TRef.ofBuf, TRef.toBuf, cast_eq]
    rfl

set_option maxRecDepth 8192 in
theorem step3 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_arg1 : V (Proc.devRef .tc main_arg1) = x1)
    (h_v1 : V (Proc.devRef .tc main_v1) = ReadP.val_main_v1 (F := F) x1)
    (h_v3 : V (Proc.devRef .tc main_v3) = ReadP.val_main_v3 (F := F) x1)
    (h_call0_v5 : V (Proc.devRef .tc main_call0_v5) = ReadP.val_main_call0_v5 (F := F) x0 x2)
    :
    after (c3 (F := F)) V (Proc.devRef .tc main_arg1) = x1
    ∧ after (c3 (F := F)) V (Proc.devRef .tc main_v1) = ReadP.val_main_v1 (F := F) x1
    ∧ after (c3 (F := F)) V (Proc.devRef .tc main_v3) = ReadP.val_main_v3 (F := F) x1
    ∧ after (c3 (F := F)) V (Proc.devRef .tc main_v5) = ReadP.val_main_v5 (F := F) x0 x2 := by
  refine ⟨?_, ?_, ?_, ?_⟩
  · after_results_simp
    exact h_arg1
  · after_results_simp
    exact h_v1
  · after_results_simp
    exact h_v3
  · after_results_simp
    try simp only [ofBuf_toBuf]
    (try rw [h_arg1]); (try rw [h_v1]); (try rw [h_v3]); (try rw [h_call0_v5])
    try simp only [TRef.ofBuf, TRef.toBuf, cast_eq]
    rfl

set_option maxRecDepth 8192 in
theorem step4 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_arg1 : V (Proc.devRef .tc main_arg1) = x1)
    (h_v1 : V (Proc.devRef .tc main_v1) = ReadP.val_main_v1 (F := F) x1)
    (h_v3 : V (Proc.devRef .tc main_v3) = ReadP.val_main_v3 (F := F) x1)
    (h_v5 : V (Proc.devRef .tc main_v5) = ReadP.val_main_v5 (F := F) x0 x2)
    :
    after (c4 (F := F)) V (Proc.devRef .tc main_v1) = ReadP.val_main_v1 (F := F) x1
    ∧ after (c4 (F := F)) V (Proc.devRef .tc main_v3) = ReadP.val_main_v3 (F := F) x1
    ∧ after (c4 (F := F)) V (Proc.devRef .tc main_v5) = ReadP.val_main_v5 (F := F) x0 x2
    ∧ after (c4 (F := F)) V (Proc.devRef .tc main_v7) = ReadP.val_main_v7 (F := F) x1 := by
  refine ⟨?_, ?_, ?_, ?_⟩
  · after_results_simp
    exact h_v1
  · after_results_simp
    exact h_v3
  · after_results_simp
    exact h_v5
  · after_results_simp
    try simp only [ofBuf_toBuf]
    (try rw [h_arg1]); (try rw [h_v1]); (try rw [h_v3]); (try rw [h_v5])
    try simp only [TRef.ofBuf, TRef.toBuf, cast_eq]
    rfl

set_option maxRecDepth 8192 in
theorem step5 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_v1 : V (Proc.devRef .tc main_v1) = ReadP.val_main_v1 (F := F) x1)
    (h_v3 : V (Proc.devRef .tc main_v3) = ReadP.val_main_v3 (F := F) x1)
    (h_v5 : V (Proc.devRef .tc main_v5) = ReadP.val_main_v5 (F := F) x0 x2)
    (h_v7 : V (Proc.devRef .tc main_v7) = ReadP.val_main_v7 (F := F) x1)
    :
    after (c5 (F := F)) V (Proc.devRef .tc main_v1) = ReadP.val_main_v1 (F := F) x1
    ∧ after (c5 (F := F)) V (Proc.devRef .tc main_v3) = ReadP.val_main_v3 (F := F) x1
    ∧ after (c5 (F := F)) V (Proc.devRef .tc main_v5) = ReadP.val_main_v5 (F := F) x0 x2
    ∧ after (c5 (F := F)) V (Proc.devRef .tc main_call2_v5) = ReadP.val_main_call2_v5 (F := F) x1 := by
  refine ⟨?_, ?_, ?_, ?_⟩
  · after_results_simp
    exact h_v1
  · after_results_simp
    exact h_v3
  · after_results_simp
    exact h_v5
  · after_results_simp
    try simp only [ofBuf_toBuf]
    (try rw [h_v1]); (try rw [h_v3]); (try rw [h_v5]); (try rw [h_v7])
    try simp only [TRef.ofBuf, TRef.toBuf, cast_eq]
    rfl

set_option maxRecDepth 8192 in
theorem step6 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_v1 : V (Proc.devRef .tc main_v1) = ReadP.val_main_v1 (F := F) x1)
    (h_v3 : V (Proc.devRef .tc main_v3) = ReadP.val_main_v3 (F := F) x1)
    (h_v5 : V (Proc.devRef .tc main_v5) = ReadP.val_main_v5 (F := F) x0 x2)
    (h_call2_v5 : V (Proc.devRef .tc main_call2_v5) = ReadP.val_main_call2_v5 (F := F) x1)
    :
    after (c6 (F := F)) V (Proc.devRef .tc main_v1) = ReadP.val_main_v1 (F := F) x1
    ∧ after (c6 (F := F)) V (Proc.devRef .tc main_v3) = ReadP.val_main_v3 (F := F) x1
    ∧ after (c6 (F := F)) V (Proc.devRef .tc main_v5) = ReadP.val_main_v5 (F := F) x0 x2
    ∧ after (c6 (F := F)) V (Proc.devRef .tc main_call2_v5) = ReadP.val_main_call2_v5 (F := F) x1
    ∧ after (c6 (F := F)) V (Proc.devRef .tc main_call2_v12) = ReadP.val_main_call2_v12 (F := F) x1 := by
  refine ⟨?_, ?_, ?_, ?_, ?_⟩
  · after_results_simp
    exact h_v1
  · after_results_simp
    exact h_v3
  · after_results_simp
    exact h_v5
  · after_results_simp
    exact h_call2_v5
  · after_results_simp
    try simp only [ofBuf_toBuf]
    (try rw [h_v1]); (try rw [h_v3]); (try rw [h_v5]); (try rw [h_call2_v5])
    try simp only [TRef.ofBuf, TRef.toBuf, cast_eq]
    rfl

set_option maxRecDepth 8192 in
theorem step7 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_v1 : V (Proc.devRef .tc main_v1) = ReadP.val_main_v1 (F := F) x1)
    (h_v3 : V (Proc.devRef .tc main_v3) = ReadP.val_main_v3 (F := F) x1)
    (h_v5 : V (Proc.devRef .tc main_v5) = ReadP.val_main_v5 (F := F) x0 x2)
    (h_call2_v5 : V (Proc.devRef .tc main_call2_v5) = ReadP.val_main_call2_v5 (F := F) x1)
    (h_call2_v12 : V (Proc.devRef .tc main_call2_v12) = ReadP.val_main_call2_v12 (F := F) x1)
    :
    after (c7 (F := F)) V (Proc.devRef .tc main_v1) = ReadP.val_main_v1 (F := F) x1
    ∧ after (c7 (F := F)) V (Proc.devRef .tc main_v3) = ReadP.val_main_v3 (F := F) x1
    ∧ after (c7 (F := F)) V (Proc.devRef .tc main_v8) = ReadP.val_main_v8 (F := F) x0 x1 x2 := by
  refine ⟨?_, ?_, ?_⟩
  · after_results_simp
    exact h_v1
  · after_results_simp
    exact h_v3
  · after_results_simp
    try simp only [ofBuf_toBuf]
    (try rw [h_v1]); (try rw [h_v3]); (try rw [h_v5]); (try rw [h_call2_v5]); (try rw [h_call2_v12])
    try simp only [TRef.ofBuf, TRef.toBuf, cast_eq]
    rfl

set_option maxRecDepth 8192 in
theorem step8 (V : Valuation τ sig (Elt F)) (x0 : (⟨S4x2048x2048, .f32⟩ : BufTy).Contents (Elt F)) (x1 : (⟨S4x2048, .i32⟩ : BufTy).Contents (Elt F))
    (x2 : (⟨S32000x2048, .f32⟩ : BufTy).Contents (Elt F))
    (h_v1 : V (Proc.devRef .tc main_v1) = ReadP.val_main_v1 (F := F) x1)
    (h_v3 : V (Proc.devRef .tc main_v3) = ReadP.val_main_v3 (F := F) x1)
    (h_v8 : V (Proc.devRef .tc main_v8) = ReadP.val_main_v8 (F := F) x0 x1 x2)
    :
    after (c8 (F := F)) V (Proc.devRef .tc main_v14) = ReadP.val_main_v14 (F := F) x0 x1 x2 := by
  after_results_simp
  try simp only [ofBuf_toBuf]
  (try rw [h_v1]); (try rw [h_v3]); (try rw [h_v8])
  try simp only [TRef.ofBuf, TRef.toBuf, cast_eq]
  rfl

/-! ### The stretches in a row -/

/-- From any contents, the whole program leaves the result buffer at the last stage of the three arguments' contents. -/
theorem out_eq (V : Valuation τ sig (Elt F)) :
    after (ops (F := F)) V (Proc.devRef .tc main_v14)
      = ReadP.val_main_v14 (F := F) (V (Proc.devRef .tc main_arg0)) (V (Proc.devRef .tc main_arg1))
          (V (Proc.devRef .tc main_arg2)) := by
  rw [ops_eq]
  repeat rw [StableHlo.after_append]
  obtain ⟨a0, a1, a2, a3, a4⟩ := step1 V (V (Proc.devRef .tc main_arg0)) (V (Proc.devRef .tc main_arg1)) (V (Proc.devRef .tc main_arg2)) rfl rfl rfl
  obtain ⟨b0, b1, b2, b3⟩ := step2 _ (V (Proc.devRef .tc main_arg0)) (V (Proc.devRef .tc main_arg1)) (V (Proc.devRef .tc main_arg2)) a0 a1 a2 a3 a4
  obtain ⟨c0, c1, c2, c3⟩ := step3 _ (V (Proc.devRef .tc main_arg0)) (V (Proc.devRef .tc main_arg1)) (V (Proc.devRef .tc main_arg2)) b0 b1 b2 b3
  obtain ⟨d0, d1, d2, d3⟩ := step4 _ (V (Proc.devRef .tc main_arg0)) (V (Proc.devRef .tc main_arg1)) (V (Proc.devRef .tc main_arg2)) c0 c1 c2 c3
  obtain ⟨e0, e1, e2, e3⟩ := step5 _ (V (Proc.devRef .tc main_arg0)) (V (Proc.devRef .tc main_arg1)) (V (Proc.devRef .tc main_arg2)) d0 d1 d2 d3
  obtain ⟨f0, f1, f2, f3, f4⟩ := step6 _ (V (Proc.devRef .tc main_arg0)) (V (Proc.devRef .tc main_arg1)) (V (Proc.devRef .tc main_arg2)) e0 e1 e2 e3
  obtain ⟨g0, g1, g2⟩ := step7 _ (V (Proc.devRef .tc main_arg0)) (V (Proc.devRef .tc main_arg1)) (V (Proc.devRef .tc main_arg2)) f0 f1 f2 f3 f4
  exact step8 _ (V (Proc.devRef .tc main_arg0)) (V (Proc.devRef .tc main_arg1)) (V (Proc.devRef .tc main_arg2)) g0 g1 g2

/-- On every device, for any float values, from any memory with zero counters: every weakly fair execution of @main ends
    with the result buffer at the last stage of the three arguments, and the arguments unchanged (no operation writes
    them). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = Cert.ReferenceIdeal.ReadP.val_main_v14 (F := F) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun _ h c => ⟨(h c main_v14).trans (out_eq (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefRow.lean ====
/-
  The reference's loss of one row.  For batch b and position s, with the row's label either the ignored one or a
  vocabulary column, the masked negative log-softmax at the label is the specification's row loss: the label with the
  ignored one replaced by 0 is a column between 0 and 31999, so the index normalisation leaves it alone, the range test
  passes and the gather reads the log-softmax at that column; the log-softmax of a row is the logit minus the row maximum
  minus the log of the sum of exponentials of the shifted logits.
-/
import proofs.«401228_j17970143166524_3_alg».proof.Proof.RefRead
import proofs.«401228_j17970143166524_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate

noncomputable section

open scoped BigOperators

namespace Cert.ReferenceIdeal.RefRow

open Cert.ReferenceIdeal Cert.ReferenceIdeal.Gen Cert.ReferenceIdeal.ReadP Idealize.ShloMosaic Idealize.ShloMosaic.ValueIdx Cert.LinearCE

/-- Token row b * 2048 + s of the 8192. -/
def rowIdx (b : Fin 4) (s : Fin 2048) : Fin 8192 := ⟨b.val * 2048 + s.val, by have := b.isLt; have := s.isLt; omega⟩

/-- The reduction over the vocabulary axis at (b, s): the fold of the body from the initial value over the 32000 columns. -/
theorem reduce_d2_apply {α : Type} (f : α → α → α) [Std.Commutative f] [Std.Associative f]
    (y : S4x2048x32000.Idx → α) (init : S_.Idx → α) (b : Fin 4) (s : Fin 2048) :
    Host.reduce f y init reducesTo_S4x2048x32000_S4x2048_d2 h_S_ (ix2 b s)
      = (Finset.univ : Finset (Fin 32000)).fold f (init (Shape.Idx.first h_S_)) (fun v => y (ix3 b s v)) := by
  have h : S4x2048x32000.Reduces [2] S4x2048 := by decide
  rw [Host.reduce_eq_fold_single (a := 2) f y init reducesTo_S4x2048x32000_S4x2048_d2 h h_S_ (ix2 b s)]
  have e : (y ∘ h.lift (ix2 b s)) = fun v : Fin 32000 => y (ix3 b s v) := by
    funext v
    show y (h.lift (ix2 b s) v) = y (ix3 b s v)
    congr 1
    funext a
    apply Fin.ext
    match a with
    | ⟨0, _⟩ => rfl
    | ⟨1, _⟩ => rfl
    | ⟨2, _⟩ => rfl
  rw [e]
  rfl

local notation "gd" => gather_S4x2048x32000_S4x2048x1x1_S4x2048x1_n_2_01_01_2_3_111

/-- A fold over the one-element index set is the body applied to that element and the initial value. -/
theorem fold_fin_one {α : Type} (f : α → α → α) [Std.Commutative f] [Std.Associative f] (c : α) (g : Fin 1 → α) :
    (Finset.univ : Finset (Fin 1)).fold f c g = f (g 0) c := by
  rw [Finset.univ_unique, Finset.fold_singleton]; rfl

/-- The reduction over the unit axis at (b, s, 0): the body applied to the one element and the initial value. -/
theorem reduce_d3_apply {α : Type} (f : α → α → α) [Std.Commutative f] [Std.Associative f]
    (y : S4x2048x1x1.Idx → α) (init : S_.Idx → α) (b : Fin 4) (s : Fin 2048) :
    Host.reduce f y init reducesTo_S4x2048x1x1_S4x2048x1_d3 h_S_ (ix3 b s 0)
      = f (y (ix4 b s 0 0)) (init (Shape.Idx.first h_S_)) := by
  have h : S4x2048x1x1.Reduces [3] S4x2048x1 := by decide
  rw [Host.reduce_eq_fold_single (a := 3) f y init reducesTo_S4x2048x1x1_S4x2048x1_d3 h h_S_ (ix3 b s 0)]
  refine (fold_fin_one f (init (Shape.Idx.first h_S_)) (fun k => y (h.lift (ix3 b s 0) k))).trans ?_
  refine congrArg (fun z => f (y z) (init (Shape.Idx.first h_S_))) (funext fun a => Fin.ext ?_)
  match a with
  | ⟨0, _⟩ => rfl
  | ⟨1, _⟩ => rfl
  | ⟨2, _⟩ => rfl
  | ⟨3, _⟩ => rfl

/-- The gather of take-along-the-last-axis at (b, s, 0): the operand at (b, s, c) with c the start index at (b, s, 0, 0)
    read signed and clamped into the 32000 columns. -/
theorem gather_apply {α : Type} (lp : S4x2048x32000.Idx → α) (idx : IVec S4x2048x1x1 32) (b : Fin 4) (s : Fin 2048) :
    Host.gather gd lp idx (ix3 b s 0)
      = lp (ix3 b s ⟨min (idx (ix4 b s 0 0)).toInt.toNat 31999, by omega⟩) := by
  unfold Host.gather
  congr 1
  funext a
  apply Fin.ext
  match a with
  | ⟨0, _⟩ =>
    show GatherDims.start gd (ix3 b s 0) idx 0 + GatherDims.batchCoord gd (ix3 b s 0) 0 + GatherDims.offCoord gd (ix3 b s 0) 0 = b.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show GatherDims.start gd (ix3 b s 0) idx 1 + GatherDims.batchCoord gd (ix3 b s 0) 1 + GatherDims.offCoord gd (ix3 b s 0) 1 = s.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨2, _⟩ =>
    show GatherDims.start gd (ix3 b s 0) idx 2 + GatherDims.batchCoord gd (ix3 b s 0) 2 + GatherDims.offCoord gd (ix3 b s 0) 2 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gd (ix3 b s 0)
        ⟨List.idxOf (2 : Fin 3) (GatherDims.startIndexMap gd), List.idxOf_lt_length_iff.2 (by decide)⟩ = ix4 b s 0 0 := by
      funext c; apply Fin.ext
      match c with
      | ⟨0, _⟩ => rfl
      | ⟨1, _⟩ => rfl
      | ⟨2, _⟩ => rfl
      | ⟨3, _⟩ => rfl
    rw [hsi]
    rfl

theorem rowB_rowIdx (b : Fin 4) (s : Fin 2048) : rowB (rowIdx b s) = b := by
  apply Fin.ext; show (b.val * 2048 + s.val) / 2048 = b.val; have := s.isLt; omega

theorem rowS_rowIdx (b : Fin 4) (s : Fin 2048) : rowS (rowIdx b s) = s := by
  apply Fin.ext; show (b.val * 2048 + s.val) % 2048 = s.val; have := s.isLt; omega

/-- The logits at (b, s, v): the specification's logit of row b * 2048 + s at column v. -/
theorem logits_apply (X : S4x2048x2048.Idx → EReal) (W : S32000x2048.Idx → EReal) (b : Fin 4) (s : Fin 2048) (v : Fin 32000) :
    val_main_v4 (F := Ideal) X W (ix3 b s v) = zOf X W (rowIdx b s) v := by
  rw [val_main_v4_apply]
  unfold zOf logit xOf wOf
  rw [rowB_rowIdx, rowS_rowIdx]
  refine Finset.sum_congr rfl fun k _ => ?_
  have el : lidx_main_v4 (ix3 b s v) k = ix3 b s k := by
    funext a; match a with | ⟨0, _⟩ => rfl | ⟨1, _⟩ => rfl | ⟨2, _⟩ => rfl
  have er : ridx_main_v4 (ix3 b s v) k = ix2 v k := by
    funext a; match a with | ⟨0, _⟩ => rfl | ⟨1, _⟩ => rfl
  rw [el, er]

/-- -∞ as the 32-bit pattern the program names. -/
theorem ofBits_neg_inf : Ideal.ofBits .f32 0xFF800000#32 = (⊥ : EReal) := by simp [Ideal.ofBits, Ideal.ieee]

/-- The row maximum at (b, s), after the maximum with -∞: the specification's row maximum. -/
theorem rowmax_apply (X : S4x2048x2048.Idx → EReal) (W : S32000x2048.Idx → EReal) (b : Fin 4) (s : Fin 2048) :
    val_main_call0_v2 (F := Ideal) X W (ix2 b s) = rowMax (zOf X W (rowIdx b s)) := by
  rw [val_main_call0_v2_apply, val_main_call0_v1_apply, val_main_call0_cst_0_apply]
  unfold val_main_call0_v0
  rw [reduce_d2_apply, val_main_call0_cst_apply]
  simp only [Ideal.ofBits_def, Ideal.maximumf_def, ofBits_neg_inf]
  rw [max_eq_right bot_le]
  unfold rowMax
  congr 1
  funext v
  exact logits_apply X W b s v

/-- The shifted logits at (b, s, v): the logit minus the row maximum. -/
theorem shifted_apply (X : S4x2048x2048.Idx → EReal) (W : S32000x2048.Idx → EReal) (b : Fin 4) (s : Fin 2048) (v : Fin 32000) :
    val_main_call0_v5 (F := Ideal) X W (ix3 b s v)
      = zOf X W (rowIdx b s) v - rowMax (zOf X W (rowIdx b s)) := by
  have e4 : idx_main_call0_v4 (ix3 b s v) = ix3 b s 0 := by
    funext a; match a with | ⟨0, _⟩ => rfl | ⟨1, _⟩ => rfl | ⟨2, _⟩ => rfl
  have e3 : idx_main_call0_v3 (ix3 b s (0 : Fin 1)) = ix2 b s := by
    funext a; match a with | ⟨0, _⟩ => rfl | ⟨1, _⟩ => rfl
  rw [val_main_call0_v5_apply, logits_apply, val_main_call0_v4_apply, e4, val_main_call0_v3_apply, e3, rowmax_apply]
  rfl

/-- The log of the row's sum of exponentials of the shifted logits, at (b, s, v). -/
theorem logsum_apply (X : S4x2048x2048.Idx → EReal) (W : S32000x2048.Idx → EReal) (b : Fin 4) (s : Fin 2048) (v : Fin 32000) :
    val_main_call0_v10 (F := Ideal) X W (ix3 b s v)
      = Ideal.log (∑ k : Fin 32000, Ideal.exp (zOf X W (rowIdx b s) k - rowMax (zOf X W (rowIdx b s)))) := by
  have e10 : idx_main_call0_v10 (ix3 b s v) = ix3 b s 0 := by
    funext a; match a with | ⟨0, _⟩ => rfl | ⟨1, _⟩ => rfl | ⟨2, _⟩ => rfl
  have e8 : idx_main_call0_v8 (ix3 b s (0 : Fin 1)) = ix2 b s := by
    funext a; match a with | ⟨0, _⟩ => rfl | ⟨1, _⟩ => rfl
  rw [val_main_call0_v10_apply, e10, val_main_call0_v9_apply, val_main_call0_v8_apply, e8, val_main_call0_v7_apply,
    val_main_call0_cst_1_apply]
  simp only [Ideal.ofBits_def, Ideal.ofBits_zero_f32, zero_add, Ideal.hostUnary_log_def]
  refine congrArg Ideal.log (Finset.sum_congr rfl fun k _ => ?_)
  have e7 : idx_main_call0_v7 (ix2 b s) k = ix3 b s k := by
    funext a; match a with | ⟨0, _⟩ => rfl | ⟨1, _⟩ => rfl | ⟨2, _⟩ => rfl
  rw [e7, val_main_call0_v6_apply, shifted_apply]
  rfl

/-- The log-softmax at (b, s, v): the shifted logit minus the log of the sum of exponentials. -/
theorem logp_apply (X : S4x2048x2048.Idx → EReal) (W : S32000x2048.Idx → EReal) (b : Fin 4) (s : Fin 2048) (v : Fin 32000) :
    val_main_v5 (F := Ideal) X W (ix3 b s v)
      = (zOf X W (rowIdx b s) v - rowMax (zOf X W (rowIdx b s)))
        - Ideal.log (∑ k : Fin 32000, Ideal.exp (zOf X W (rowIdx b s) k - rowMax (zOf X W (rowIdx b s)))) := by
  rw [val_main_v5_apply, shifted_apply, logsum_apply]
  rfl

/-- The comparison "not equal" as a one-bit word. -/
theorem cmpi_ne_eq (a c : BitVec 32) : IntOp.cmpi .ne a c = if a = c then 0#1 else 1#1 := by
  unfold IntOp.cmpi
  by_cases h : a = c
  · simp [h]
  · have hb : (a != c) = true := bne_iff_ne.mpr h
    rw [if_neg h]
    show BitVec.ofBool (a != c) = 1#1
    rw [hb]
    rfl

/-- The mask bit at (b, s): 0 on the ignored label, 1 elsewhere. -/
theorem mask_apply (T : S4x2048.Idx → BitVec 32) (b : Fin 4) (s : Fin 2048) :
    val_main_v1 (F := Ideal) T (ix2 b s) = if T (ix2 b s) = ignoreWord then 0#1 else 1#1 := by
  rw [val_main_v1_apply, val_main_v0_apply, val_main_c_apply, cmpi_ne_eq]

/-- The label with the ignored one replaced by 0, at (b, s). -/
theorem safe_apply (T : S4x2048.Idx → BitVec 32) (b : Fin 4) (s : Fin 2048) :
    val_main_v6 (F := Ideal) T (ix2 b s) = safeWord (T (ix2 b s)) := by
  rw [val_main_v6_apply, mask_apply, val_main_call1_v1_apply, val_main_call1_v0_apply, val_main_c_1_apply]
  unfold safeWord
  by_cases h : T (ix2 b s) = ignoreWord
  · rw [if_pos h, if_pos h, select_zero]
  · rw [if_neg h, if_neg h, select_one]

/-- The same with a trailing unit axis. -/
theorem safe3_apply (T : S4x2048.Idx → BitVec 32) (b : Fin 4) (s : Fin 2048) :
    val_main_v7 (F := Ideal) T (ix3 b s 0) = safeWord (T (ix2 b s)) := by
  have e : idx_main_v7 (ix3 b s (0 : Fin 1)) = ix2 b s := by
    funext a; match a with | ⟨0, _⟩ => rfl | ⟨1, _⟩ => rfl
  rw [val_main_v7_apply, e, safe_apply]

/-- A label that is the ignored one or a vocabulary column gives a safe word below 32000. -/
theorem safeWord_lt (tw : BitVec 32) (h : tw = ignoreWord ∨ tw.toNat < 32000) : (safeWord tw).toNat < 32000 := by
  unfold safeWord
  by_cases e : tw = ignoreWord
  · rw [if_pos e]; decide
  · rw [if_neg e]; exact h.resolve_left e

/-- The normalised index at (b, s, 0): the safe word is not negative, so it is left alone. -/
theorem idx3_apply (T : S4x2048.Idx → BitVec 32) (b : Fin 4) (s : Fin 2048) (hw : (safeWord (T (ix2 b s))).toNat < 32000) :
    val_main_call2_v4 (F := Ideal) T (ix3 b s 0) = safeWord (T (ix2 b s)) := by
  have h0 : IntOp.cmpi .slt (safeWord (T (ix2 b s))) 0#32 = 0#1 :=
    eq_zero_of_ne_one fun h =>
      absurd ((StableHlo.Predicate.slt_iff_toNat (by omega) (by decide)).mp h) (by simp)
  rw [val_main_call2_v4_apply, val_main_call2_v1_apply, safe3_apply, val_main_call2_v0_apply, val_main_call2_c_apply, h0,
    select_zero]

/-- The same after the reshape to two trailing unit axes. -/
theorem idx4_apply (T : S4x2048.Idx → BitVec 32) (b : Fin 4) (s : Fin 2048) (hw : (safeWord (T (ix2 b s))).toNat < 32000) :
    val_main_call2_v5 (F := Ideal) T (ix4 b s 0 0) = safeWord (T (ix2 b s)) := by
  have e : idx_main_call2_v5 (ix4 b s (0 : Fin 1) (0 : Fin 1)) = ix3 b s 0 := by
    funext a; apply Fin.ext
    have hs := s.isLt
    match a with
    | ⟨0, _⟩ => show (((b.val * 2048 + s.val) * 1 + 0) * 1 + 0) / 2048 = b.val; omega
    | ⟨1, _⟩ => show (((b.val * 2048 + s.val) * 1 + 0) * 1 + 0) / 1 % 2048 = s.val; omega
    | ⟨2, _⟩ => rfl
  rw [val_main_call2_v5_apply, e, idx3_apply T b s hw]

/-- The range test at (b, s, 0) passes: the safe word is between 0 and 31999. -/
theorem inrange_apply (T : S4x2048.Idx → BitVec 32) (b : Fin 4) (s : Fin 2048) (hw : (safeWord (T (ix2 b s))).toNat < 32000) :
    val_main_call2_v12 (F := Ideal) T (ix3 b s 0) = 1#1 := by
  have hge : IntOp.cmpi .sge (safeWord (T (ix2 b s))) 0#32 = 1#1 :=
    (StableHlo.Predicate.sge_iff_toNat (by omega) (by decide)).mpr (by simp)
  have hle : IntOp.cmpi .sle (safeWord (T (ix2 b s))) 31999#32 = 1#1 :=
    (StableHlo.Predicate.sle_iff_toNat (by omega) (by decide)).mpr (by show _ ≤ 31999; omega)
  unfold val_main_call2_v12
  rw [reduce_d3_apply, val_main_call2_v11_apply, val_main_call2_v7_apply, val_main_call2_v10_apply, idx4_apply T b s hw,
    val_main_call2_v6_apply, val_main_call2_c_2_apply, val_main_call2_v9_apply, val_main_call2_v8_apply,
    val_main_call2_c_1_apply, val_main_call2_c_3_apply, hge, hle]
  decide

/-- The gathered value at (b, s, 0): the log-softmax at the safe word's column. -/
theorem gathered_apply (X : S4x2048x2048.Idx → EReal) (T : S4x2048.Idx → BitVec 32) (W : S32000x2048.Idx → EReal)
    (b : Fin 4) (s : Fin 2048) (hw : (safeWord (T (ix2 b s))).toNat < 32000) :
    val_main_call2_v13 (F := Ideal) X T W (ix3 b s 0)
      = val_main_v5 (F := Ideal) X W (ix3 b s (tcol (safeWord (T (ix2 b s))))) := by
  unfold val_main_call2_v13
  rw [gather_apply]
  refine congrArg (fun c => val_main_v5 (F := Ideal) X W (ix3 b s c)) (Fin.ext ?_)
  show min (val_main_call2_v5 (F := Ideal) T (ix4 b s 0 0)).toInt.toNat 31999 = (safeWord (T (ix2 b s))).toNat % 32000
  rw [idx4_apply T b s hw, StableHlo.Predicate.toInt_eq_toNat_of_lt (by omega), Int.toNat_natCast, Nat.mod_eq_of_lt hw]
  omega

/-- The take along the last axis at (b, s, 0): in range, so the gathered value. -/
theorem taken_apply (X : S4x2048x2048.Idx → EReal) (T : S4x2048.Idx → BitVec 32) (W : S32000x2048.Idx → EReal)
    (b : Fin 4) (s : Fin 2048) (hw : (safeWord (T (ix2 b s))).toNat < 32000) :
    val_main_v8 (F := Ideal) X T W (ix3 b s 0)
      = val_main_v5 (F := Ideal) X W (ix3 b s (tcol (safeWord (T (ix2 b s))))) := by
  rw [val_main_v8_apply, inrange_apply T b s hw, select_one, gathered_apply X T W b s hw]

theorem v11_apply (X : S4x2048x2048.Idx → EReal) (T : S4x2048.Idx → BitVec 32) (W : S32000x2048.Idx → EReal)
    (hT : ∀ i, T i = ignoreWord ∨ (T i).toNat < 32000) (b : Fin 4) (s : Fin 2048) :
    val_main_v11 (F := Ideal) X T W (ix2 b s) = lossR (zOf X W (rowIdx b s)) (T (ix2 b s)) := by
  have hw := safeWord_lt _ (hT (ix2 b s))
  have e9 : idx_main_v9 (ix2 b s) = ix3 b s 0 := by
    funext a; apply Fin.ext
    have hs := s.isLt
    match a with
    | ⟨0, _⟩ => show (b.val * 2048 + s.val) / 2048 = b.val; omega
    | ⟨1, _⟩ => show (b.val * 2048 + s.val) / 1 % 2048 = s.val; omega
    | ⟨2, _⟩ => rfl
  rw [val_main_v11_apply, mask_apply]
  unfold lossR
  by_cases h : T (ix2 b s) = ignoreWord
  · rw [if_pos h, if_pos h, select_zero, val_main_call3_v1_apply, val_main_call3_v0_apply, val_main_cst_apply]
    simp only [Ideal.ofBits_def, Ideal.ofBits_zero_f32]
  · rw [if_neg h, if_neg h, select_one, val_main_v10_apply, val_main_v9_apply, e9, taken_apply X T W b s hw, logp_apply]
    rfl

end Cert.ReferenceIdeal.RefRow

end
-- ==== Proof.RefTotal.lean ====
/-
  The reference's result.  The numerator is the sum over the 4 × 2048 rows of the masked row losses, the denominator
  the count of rows whose label is not the ignored one, converted to a float; re-indexed over the 8192 token rows these
  are the specification's two sums.
-/
import proofs.«401228_j17970143166524_3_alg».proof.Proof.RefRead
import proofs.«401228_j17970143166524_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.RefTotal

open Cert.ReferenceIdeal Cert.ReferenceIdeal.Gen Cert.ReferenceIdeal.ReadP Idealize.ShloMosaic Idealize.ShloMosaic.ValueIdx Cert.LinearCE

/-- Token row `r` of the 8192 is the index (batch `r / 2048`, position `r % 2048`) of the 4 × 2048 rectangle, and an
    index (b, s) of the rectangle is token row `b * 2048 + s`: the two are inverse to one another. -/
def rowEquiv : Fin 8192 ≃ S4x2048.Idx where
  toFun r := ix2 (rowB r) (rowS r)
  invFun j := ⟨(j 0).val * 2048 + (j 1).val, by
    have h0 : (j 0).val < 4 := (j 0).isLt
    have h1 : (j 1).val < 2048 := (j 1).isLt
    omega⟩
  left_inv r := by
    apply Fin.ext
    show r.val / 2048 * 2048 + r.val % 2048 = r.val
    omega
  right_inv j := by
    obtain ⟨a, b, rfl⟩ : ∃ a b, j = ix2 a b := ⟨j 0, j 1, eq_ix2 j⟩
    have ha : a.val < 4 := a.isLt
    have hb : b.val < 2048 := b.isLt
    have e0 : rowB ⟨a.val * 2048 + b.val, by omega⟩ = a := Fin.ext (by show (a.val * 2048 + b.val) / 2048 = a.val; omega)
    have e1 : rowS ⟨a.val * 2048 + b.val, by omega⟩ = b := Fin.ext (by show (a.val * 2048 + b.val) % 2048 = b.val; omega)
    show ix2 (rowB ⟨a.val * 2048 + b.val, _⟩) (rowS ⟨a.val * 2048 + b.val, _⟩) = ix2 a b
    rw [e0, e1]

theorem rowEquiv_apply (r : Fin 8192) : rowEquiv r = ix2 (rowB r) (rowS r) := rfl

/-- A sum over the 4 × 2048 rectangle is the sum over the 8192 token rows. -/
theorem sum_rect_eq_sum_rows {M : Type*} [AddCommMonoid M] (f : S4x2048.Idx → M) :
    ∑ j : S4x2048.Idx, f j = ∑ r : Fin 8192, f (ix2 (rowB r) (rowS r)) :=
  (Equiv.sum_comp rowEquiv f).symm

/-- The row (batch, position) names, batch * 2048 + position, is the row itself. -/
theorem row_of_rowB_rowS (r : Fin 8192) (h : (rowB r).val * 2048 + (rowS r).val < 8192) :
    (⟨(rowB r).val * 2048 + (rowS r).val, h⟩ : Fin 8192) = r := by
  apply Fin.ext
  show r.val / 2048 * 2048 + r.val % 2048 = r.val
  omega

/-- The coercion of the reals into the extended reals commutes with a finite sum. -/
theorem ereal_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the row masks is the number of rows that are not ignored. -/
theorem sum_maskf_eq_card (T : S4x2048.Idx → BitVec 32) :
    ∑ r : Fin 8192, maskf (tOf T r)
      = (((Finset.univ.filter fun r : Fin 8192 => tOf T r ≠ ignoreWord).card : ℝ) : EReal) := by
  have h : ∀ r : Fin 8192, maskf (tOf T r) = ((if tOf T r ≠ ignoreWord then (1 : ℝ) else 0 : ℝ) : EReal) := by
    intro r
    unfold maskf
    by_cases e : tOf T r = ignoreWord
    · simp [e]
    · simp [e]
  rw [Finset.sum_congr rfl fun r _ => h r, ← ereal_coe_sum, Finset.sum_boole]

/-- The compare-not-equal bit is set exactly when the words differ. -/
theorem cmpi_ne_eq_one_iff {w : Nat} (a b : BitVec w) : IntOp.cmpi .ne a b = 1#1 ↔ a ≠ b := by
  simp only [IntOp.cmpi, StableHlo.Predicate.ofBool_eq_one_iff, bne_iff_ne]

/-- The widened not-ignored bit of a row is 1 when its label is not the ignored one, 0 when it is. -/
theorem toNat_val_main_v2 (T : S4x2048.Idx → BitVec 32) (j : S4x2048.Idx) :
    (val_main_v2 (F := Ideal) T j).toNat = if T j ≠ ignoreWord then 1 else 0 := by
  rw [val_main_v2_apply, StableHlo.Predicate.toNat_setWidth_bit, val_main_v1_apply, val_main_v0_apply, val_main_c_apply]
  simp only [cmpi_ne_eq_one_iff]

/-- The integer count: the 32-bit sum of the widened bits does not wrap and is the number of rows not ignored. -/
theorem toNat_val_main_v3 (T : S4x2048.Idx → BitVec 32) (i : S_.Idx) :
    (val_main_v3 (F := Ideal) T i).toNat = (Finset.univ.filter fun r : Fin 8192 => tOf T r ≠ ignoreWord).card := by
  classical
  have hsum : ∑ j : S4x2048.Idx, (val_main_v2 (F := Ideal) T j).toNat
      = (Finset.univ.filter fun r : Fin 8192 => tOf T r ≠ ignoreWord).card := by
    rw [sum_rect_eq_sum_rows, Finset.card_filter]
    exact Finset.sum_congr rfl fun r _ => toNat_val_main_v2 T _
  have hall : (Finset.univ.filter fun j : S4x2048.Idx => reducesTo_S4x2048_S_d0_1.drop j = i) = Finset.univ :=
    Finset.filter_true_of_mem fun j _ => funext fun b => b.elim0
  unfold val_main_v3
  rw [Host.reduce_eq_fold, hall]
  show (Finset.univ.fold IntOp.addi 0#32 (val_main_v2 (F := Ideal) T)).toNat = _
  rw [StableHlo.Predicate.toNat_fold_addi _ _ (by
    rw [hsum]
    exact lt_of_le_of_lt (Finset.card_le_univ _) (by simp)), hsum]

/-- The count of rows that are not ignored, as a float, is the sum of the row masks. -/
theorem count_eq (T : S4x2048.Idx → BitVec 32) (i : S_.Idx) :
    val_main_v13 (F := Ideal) T i = ∑ r : Fin 8192, maskf (tOf T r) := by
  have hcard : (Finset.univ.filter fun r : Fin 8192 => tOf T r ≠ ignoreWord).card ≤ 8192 := by
    simpa using Finset.card_le_univ (Finset.univ.filter fun r : Fin 8192 => tOf T r ≠ ignoreWord)
  have hn := toNat_val_main_v3 T i
  rw [val_main_v13_apply, sum_maskf_eq_card]
  show (((val_main_v3 (F := Ideal) T i).toInt : ℝ) : EReal) = _
  rw [StableHlo.Predicate.toInt_eq_toNat_of_lt (by rw [hn]; omega), hn]
  simp

/-- The summed masked row losses are the sum of the specification's row losses. -/
theorem num_eq (X : S4x2048x2048.Idx → EReal) (T : S4x2048.Idx → BitVec 32) (W : S32000x2048.Idx → EReal)
    (hrow : ∀ (b : Fin 4) (s : Fin 2048), val_main_v11 (F := Ideal) X T W (ix2 b s)
      = lossR (zOf X W ⟨b.val * 2048 + s.val, by have := b.isLt; have := s.isLt; omega⟩) (T (ix2 b s))) (i : S_.Idx) :
    val_main_v12 (F := Ideal) X T W i = ∑ r : Fin 8192, lossR (zOf X W r) (tOf T r) := by
  rw [val_main_v12_apply, val_main_cst_2_apply]
  show Ideal.ofBits .f32 0x00000000#32 + _ = _
  rw [Ideal.ofBits_zero_f32, zero_add, sum_rect_eq_sum_rows]
  refine Finset.sum_congr rfl fun r _ => ?_
  rw [hrow (rowB r) (rowS r), row_of_rowB_rowS r]
  rfl

theorem result_eq (X : S4x2048x2048.Idx → EReal) (T : S4x2048.Idx → BitVec 32) (W : S32000x2048.Idx → EReal)
    (hrow : ∀ (b : Fin 4) (s : Fin 2048), val_main_v11 (F := Ideal) X T W (ix2 b s)
      = lossR (zOf X W ⟨b.val * 2048 + s.val, by have := b.isLt; have := s.isLt; omega⟩) (T (ix2 b s))) :
    val_main_v14 (F := Ideal) X T W = fun _ => specR X T W := by
  funext i
  rw [val_main_v14_apply, num_eq X T W hrow i, count_eq T i]
  rfl

end Cert.ReferenceIdeal.RefTotal

end
-- ==== Proof.lean ====
/-
  Linear projection followed by masked softmax cross entropy, averaged over the rows that count: the tiled kernel and
  the plain reference compute the same extended real.

  A token row r has logits z r v = ∑ k, hidden r k * W v k over 32000 vocabulary columns and a label.  The kernel never
  holds a whole row of logits: it walks the vocabulary in 25 tiles of 1280 columns, keeping per row the running maximum
  m, the running sum l of exp (z - m) (rescaled by exp (m_old - m_new) whenever the maximum moves) and the running sum of
  the logits whose column is the label; after the last tile the row's loss is (m + log l) - z_label, times 1 or 0 as the
  label is a column or the ignored label.  The reference takes the row maximum M, log_softmax z = (z - M) - log ∑ exp
  (z - M), gathers it at the label and negates.  When every input is a real number and every label is the ignored one or
  a column, the running sum after all tiles is ∑ exp (z - M), the label sum picks z_label, and
  (M + log L) - z_label = -((z_label - M) - log L); both programs then divide the sum of the row losses by the number of
  rows that count.  Each program's run is read off separately — the kernel's through the per-point contents of its three
  carried vectors (an induction over the 200 grid points) and the eight write-backs of the loss array, the reference's
  through its operations stage by stage — as the same specification, `Cert.LinearCE`.

  The statement's precondition is finiteness of the two float inputs and the label range; the frames need neither.
-/
import proofs.«401228_j17970143166524_3_alg».proof.Defs
import proofs.«401228_j17970143166524_3_alg».proof.Proof.Gen.Kernel
import proofs.«401228_j17970143166524_3_alg».proof.Proof.Gen.Kernel.Skeleton
import proofs.«401228_j17970143166524_3_alg».proof.Proof.Gen.Kernel.Launch
import proofs.«401228_j17970143166524_3_alg».proof.Proof.Gen.Kernel.Points
import proofs.«401228_j17970143166524_3_alg».proof.Proof.Gen.Kernel.Frame
import proofs.«401228_j17970143166524_3_alg».proof.Proof.Gen.KernelIdeal
import proofs.«401228_j17970143166524_3_alg».proof.Proof.Gen.KernelIdeal.Skeleton
import proofs.«401228_j17970143166524_3_alg».proof.Proof.Gen.KernelIdeal.Launch
import proofs.«401228_j17970143166524_3_alg».proof.Proof.Gen.KernelIdeal.Points
import proofs.«401228_j17970143166524_3_alg».proof.Proof.Gen.KernelIdeal.Frame
import proofs.«401228_j17970143166524_3_alg».proof.Proof.Gen.ReferenceIdeal
import proofs.«401228_j17970143166524_3_alg».proof.Proof.Gen.Pre_finite_inputs
import proofs.«401228_j17970143166524_3_alg».proof.Proof.Spec
import proofs.«401228_j17970143166524_3_alg».proof.Proof.Math2
import proofs.«401228_j17970143166524_3_alg».proof.Proof.Pre
import proofs.«401228_j17970143166524_3_alg».proof.Proof.Final
import proofs.«401228_j17970143166524_3_alg».proof.Proof.KernelRun
import proofs.«401228_j17970143166524_3_alg».proof.Proof.RefRun
import proofs.«401228_j17970143166524_3_alg».proof.Proof.RefRow
import proofs.«401228_j17970143166524_3_alg».proof.Proof.RefTotal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs and leaves its arguments alone: its staged run with the result dropped
    intro m ρ _
    exact (θ_run Cert.ReferenceIdeal.defs _ _).mono (fun _ h c => (h c).2) (Cert.ReferenceIdeal.RefRun.run (F := Ideal) m ρ)
  · -- both runs end at the specification's value of the shared arguments
    intro m ρ m' ρ' hpre hagree
    refine ⟨fun c => (fun _ => Cert.LinearCE.specK (Cert.KernelIdeal.Blocks.argX m c) (Cert.KernelIdeal.Blocks.argT m c)
      (Cert.KernelIdeal.Blocks.argW m c)), Cert.KernelIdeal.KernelRun.run_spec m ρ (Cert.KernelIdeal.Final.final_row m), ?_⟩
    refine (θ_run Cert.ReferenceIdeal.defs _ _).mono (fun _ h c => ⟨(h c).1.trans ?_, (h c).2⟩)
      (Cert.ReferenceIdeal.RefRun.run (F := Ideal) m' ρ')
    obtain ⟨hX, hW, hT⟩ := @Cert.LinearCE.Pre.decode Cert.Pre_finite_inputs.Gen.facts _ _ _ (hpre c)
    rw [(hagree c).1, (hagree c).2.1, (hagree c).2.2]
    rw [Cert.ReferenceIdeal.RefTotal.result_eq _ _ _ (Cert.ReferenceIdeal.RefRow.v11_apply _ _ _ hT)]
    exact congrArg (fun x => fun _ => x) (Cert.LinearCE.specK_eq_specR _ _ _ hX hW hT).symm⟩

end Cert.Proof

end
